-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S4096x4096 : Shape := ⟨2, ![4096, 4096]⟩
abbrev S2x262144 : Shape := ⟨2, ![2, 262144]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2x262144 : S_.BroadcastsInDim S2x262144 (![] : Fin 0 → Fin S2x262144.rank)
  reducesTo_S2x262144_S_d0_1 : S2x262144.ReducesTo [0, 1] S_

variable [Facts]

def fn_part1 {F : FTy → Type} [FloatOps F] (main_arg3 : IVec S2x262144 32) (main_v13 : IVec S_ 1) (main_v15 : IVec S2x262144 1) (main_c_5 : IVec S_ 1) : IVec S_ 1 :=
  let main_v16 : IVec S_ 1 := (fun x v => Host.reduce IntOp.andi x v reducesTo_S2x262144_S_d0_1 h_S_) main_v15 main_c_5
  let main_v17 : IVec S_ 1 := andi main_v13 main_v16
  let main_c_6 : IVec S_ 32 := constantI S_ 32 4096#32
  let main_v18 : IVec S2x262144 32 := broadcastInDim S2x262144 ![] bcast_S_S2x262144 main_c_6
  let main_v19 : IVec S2x262144 1 := cmpi .slt main_arg3 main_v18
  let main_c_7 : IVec S_ 1 := constantI S_ 1 1#1
  let main_v20 : IVec S_ 1 := (fun x v => Host.reduce IntOp.andi x v reducesTo_S2x262144_S_d0_1 h_S_) main_v19 main_c_7
  let main_v21 : IVec S_ 1 := andi main_v17 main_v20
  main_v21

def fn {F : FTy → Type} [FloatOps F] (main_arg0 : FVec F S128x4096 .f32) (main_arg1 : FVec F S128x4096 .f32) (main_arg2 : FVec F S4096x4096 .f32) (main_arg3 : IVec S2x262144 32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg3 main_v14
  let main_c_5 : IVec S_ 1 := constantI S_ 1 1#1
  fn_part1 (F := F) main_arg3 main_v13 main_v15 main_c_5
-- ==== Kernel.lean ====
abbrev S128x4096 : Shape := ⟨2, ![128, 4096]⟩
abbrev S4096x4096 : Shape := ⟨2, ![4096, 4096]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S16777216 : Shape := ⟨1, ![16777216]⟩
abbrev S262144x1 : Shape := ⟨2, ![262144, 1]⟩
abbrev S2x128x4096 : Shape := ⟨3, ![2, 128, 4096]⟩
abbrev S2048x1024 : Shape := ⟨2, ![2048, 1024]⟩
abbrev S128x1024 : Shape := ⟨2, ![128, 1024]⟩
abbrev S128x2048 : Shape := ⟨2, ![128, 2048]⟩
abbrev S1x128x1024 : Shape := ⟨3, ![1, 128, 1024]⟩

abbrev nBuf : Space → Nat
  | .hbm => 41
  | .vmem => 11
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S4096x4096, .f32⟩
  | .hbm, ⟨3, _⟩ => ⟨S2x262144, .i32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S_, .f32⟩
  | .hbm, ⟨13, _⟩ => ⟨S16777216, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S_, .f32⟩
  | .hbm, ⟨23, _⟩ => ⟨S262144, .f32⟩
  | .hbm, ⟨24, _⟩ => ⟨S16777216, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S128x4096, .f32⟩
  | .hbm, ⟨29, _⟩ => ⟨S128x4096, .f32⟩
  | .hbm, ⟨30, _⟩ => ⟨S_, .f32⟩
  | .hbm, ⟨31, _⟩ => ⟨S128x4096, .f32⟩
  | .hbm, ⟨32, _⟩ => ⟨S128x4096, .f32⟩
  | .hbm, ⟨33, _⟩ => ⟨S128x4096, .bf16⟩
  | .hbm, ⟨34, _⟩ => ⟨S128x4096, .bf16⟩
  | .hbm, ⟨35, _⟩ => ⟨S128x4096, .f32⟩
  | .hbm, ⟨36, _⟩ => ⟨S2x128x4096, .f32⟩
  | .hbm, ⟨37, _⟩ => ⟨S_, .f32⟩
  | .hbm, ⟨38, _⟩ => ⟨S128x4096, .f32⟩
  | .hbm, ⟨39, _⟩ => ⟨S128x4096, .f32⟩
  | .hbm, ⟨40, _⟩ => ⟨S128x4096, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S1x128x1024, .f32⟩
  | .local _ .vmem, ⟨9, _⟩ => ⟨S1x128x1024, .f32⟩
  | .local _ .vmem, ⟨10, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S16777216 : S_.BroadcastsInDim S16777216 (![] : Fin 0 → Fin S16777216.rank)
  bcast_S262144_S262144x1_0 : S262144.BroadcastsInDim S262144x1 (![0] : Fin 1 → Fin S262144x1.rank)
  shapeCasts_S16777216_S4096x4096 : S16777216.ShapeCasts S4096x4096
  bitsLt_bf16_f32 : FTy.bits .bf16 < FTy.bits .f32
  bcast_S_S128x4096 : S_.BroadcastsInDim S128x4096 (![] : Fin 0 → Fin S128x4096.rank)
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  reducesTo_S2x128x4096_S128x4096_d0 : S2x128x4096.ReducesTo [0] S128x4096
  h_S_ : 0 < S_.numel
  scatter_S16777216_S262144x1_S262144_n_0_0_1_wf : ScatterDims.WF S16777216 S262144x1 S262144 [] [0] [0] 1
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .bf16 = 32 ∨ (Rect.block (s := S128x4096) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x4096.size a
  hwx0_2 : ∀ i : grid0.Coords, EltTy.bits .bf16 = 32 ∨ (Rect.block (s := S128x4096) S128x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x4096.size a
  hwx0_3 : ∀ i : grid0.Coords, EltTy.bits .f32 = 32 ∨ (Rect.block (s := S128x4096) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S2x128x4096.size a
  hwx0_4 : ∀ i : grid0.Coords, EltTy.bits .f32 = 32 ∨ (Rect.block (s := S2x128x4096) S1x128x1024.size (cc0_transform_4 i) (hinb0_4 i)).WholeWords (EltTy.packing .f32)

variable [Facts₀]

def scatter_S16777216_S262144x1_S262144_n_0_0_1 : ScatterDims S16777216 S262144x1 S262144 where
  updateWindowDims := []
  insertedWindowDims := [0]
  scatterDimsToOperandDims := [0]
  indexVectorDim := 1
  wf := scatter_S16777216_S262144x1_S262144_n_0_0_1_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v18) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S128x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S128x4096 : Shape := ⟨2, ![128, 4096]⟩
abbrev S4096x4096 : Shape := ⟨2, ![4096, 4096]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S128x262144 : Shape := ⟨2, ![128, 262144]⟩

abbrev nBuf : Space → Nat
  | .hbm => 79
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S4096x4096, .f32⟩
  | .hbm, ⟨3, _⟩ => ⟨S2x262144, .i32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x1, .i32⟩
  | .hbm, ⟨24, _⟩ => ⟨S262144x2, .i32⟩
  | .hbm, ⟨25, _⟩ => ⟨S262144, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S128x262144, .f32⟩
  | .hbm, ⟨35, _⟩ => ⟨S128x262144, .f32⟩
  | .hbm, ⟨36, _⟩ => ⟨S_, .f32⟩
  | .hbm, ⟨37, _⟩ => ⟨S128x4096, .f32⟩
  | .hbm, ⟨38, _⟩ => ⟨S1x262144, .f32⟩
  | .hbm, ⟨39, _⟩ => ⟨S128x262144, .f32⟩
  | .hbm, ⟨40, _⟩ => ⟨S128x262144, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S128x4096, .f32⟩
  | .hbm, ⟨50, _⟩ => ⟨S128x262144, .f32⟩
  | .hbm, ⟨51, _⟩ => ⟨S_, .f32⟩
  | .hbm, ⟨52, _⟩ => ⟨S128x262144, .f32⟩
  | .hbm, ⟨53, _⟩ => ⟨S128x262144, .f32⟩
  | .hbm, ⟨54, _⟩ => ⟨S_, .f32⟩
  | .hbm, ⟨55, _⟩ => ⟨S128x4096, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S128x262144, .f32⟩
  | .hbm, ⟨65, _⟩ => ⟨S128x262144, .f32⟩
  | .hbm, ⟨66, _⟩ => ⟨S1x262144, .f32⟩
  | .hbm, ⟨67, _⟩ => ⟨S128x262144, .f32⟩
  | .hbm, ⟨68, _⟩ => ⟨S128x262144, .f32⟩
  | .hbm, ⟨69, _⟩ => ⟨S_, .i32⟩
  | .hbm, ⟨70, _⟩ => ⟨S262144, .i32⟩
  | .hbm, ⟨71, _⟩ => ⟨S262144, .i1⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S262144, .i32⟩
  | .hbm, ⟨76, _⟩ => ⟨S262144x1, .i32⟩
  | .hbm, ⟨77, _⟩ => ⟨S128x4096, .f32⟩
  | .hbm, ⟨78, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_c_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S128x4096 : S_.BroadcastsInDim S128x4096 (![] : Fin 0 → Fin S128x4096.rank)
  bcast_S262144_S1x262144_1 : S262144.BroadcastsInDim S1x262144 (![1] : Fin 1 → Fin S1x262144.rank)
  bcast_S1x262144_S128x262144_0_1 : S1x262144.BroadcastsInDim S128x262144 (![0, 1] : Fin 2 → Fin S128x262144.rank)
  bcast_S_S128x262144 : S_.BroadcastsInDim S128x262144 (![] : Fin 0 → Fin S128x262144.rank)
  gather_S4096x4096_S262144x2_S262144_n_01_n_n_01_1_11_wf : GatherDims.WF S4096x4096 S262144x2 S262144 [] [0, 1] [] [0, 1] [] 1 ![1, 1]
  gather_S128x4096_S262144x1_S128x262144_0_1_n_n_1_1_1281_wf : GatherDims.WF S128x4096 S262144x1 S128x262144 [0] [1] [] [1] [] 1 ![128, 1]
  scatter_S128x4096_S262144x1_S128x262144_0_1_1_1_wf : ScatterDims.WF S128x4096 S262144x1 S128x262144 [0] [1] [1] 1

variable [Facts₀]

def gather_S4096x4096_S262144x2_S262144_n_01_n_n_01_1_11 : GatherDims S4096x4096 S262144x2 S262144 where
  offsetDims := []
  collapsedSliceDims := [0, 1]
  operandBatchingDims := []
  startIndicesBatchingDims := []
  startIndexMap := [0, 1]
  indexVectorDim := 1
  sliceSizes := ![1, 1]
  wf := gather_S4096x4096_S262144x2_S262144_n_01_n_n_01_1_11_wf
def gather_S128x4096_S262144x1_S128x262144_0_1_n_n_1_1_1281 : GatherDims S128x4096 S262144x1 S128x262144 where
  offsetDims := [0]
  collapsedSliceDims := [1]
  operandBatchingDims := []
  startIndicesBatchingDims := []
  startIndexMap := [1]
  indexVectorDim := 1
  sliceSizes := ![128, 1]
  wf := gather_S128x4096_S262144x1_S128x262144_0_1_n_n_1_1_1281_wf
def scatter_S128x4096_S262144x1_S128x262144_0_1_1_1 : ScatterDims S128x4096 S262144x1 S128x262144 where
  updateWindowDims := [0]
  insertedWindowDims := [1]
  scatterDimsToOperandDims := [1]
  indexVectorDim := 1
  wf := scatter_S128x4096_S262144x1_S128x262144_0_1_1_1_wf

class Facts : Prop extends Facts₀ where

variable [Facts]
-- ==== Proof.PreRead.lean ====
/-
  What the precondition says about the four inputs.

  The precondition is the conjunction of five `all` reductions: |x| < +∞, |error| < +∞, |w| < +∞ entrywise, and
  0 ≤ edge_index and edge_index < 4096 entrywise (signed compares of 32-bit words). At the ideal instance an entry
  whose absolute value is below +∞ is a real number, and a word that is signed-nonnegative and signed-below 4096 has
  unsigned value below 4096.
-/
import proofs.«427457_j19834158973336_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

open Idealize.ShloMosaic

namespace Cert.PreRead

open Cert.Pre_finite_inputs

variable [Cert.Pre_finite_inputs.Facts]

open StableHlo.Predicate

/-- The result shape has rank 0, so it has one index. -/
instance subsingleton_scalar_idx : Subsingleton S_.Idx := ⟨fun a b => funext fun d => d.elim0⟩

/-- The f32 pattern `0x7F800000` denotes +∞. -/
theorem ofBits_inf : Ideal.ofBits .f32 0x7F800000#32 = (⊤ : EReal) := by
  simp [Ideal.ofBits, Ideal.ieee]

/-- An extended real whose absolute value `max a (-a)` is strictly below +∞ is a real number: at `⊤` the maximum is
    `⊤`, at `⊥` it is `-⊥ = ⊤`, and neither is below `⊤`. -/
theorem real_of_abs_lt_top (a : EReal) (h : Ideal.cmp .olt (max a (-a)) ⊤ = 1#1) : ∃ r : ℝ, a = (r : EReal) := by
  simp only [Ideal.cmp, ofBool_eq_one_iff, decide_eq_true_eq] at h
  induction a using EReal.rec with
  | bot => simp at h
  | top => simp at h
  | coe r => exact ⟨r, rfl⟩

/-- One element of `|v| < +∞` (the bound a broadcast scalar): the entry is real. -/
theorem float_entry {t : Shape} (hb : S_.BroadcastsInDim t (![] : Fin 0 → Fin t.rank)) (h0 : 0 < S_.numel)
    (v : FVec Ideal t .f32) (i : t.Idx)
    (h : cmpf (F := Ideal) .olt (Host.absf (F := Ideal) v)
      (broadcastInDim t ![] hb (constant (F := Ideal) S_ .f32 0x7F800000#32)) i = 1#1) :
    ∃ r : ℝ, (v i : EReal) = (r : EReal) := by
  simp only [cmpf, Host.absf, bcast_scalar hb h0, constant, Ideal.ofBits_def, Ideal.hostAbsf_def, Ideal.cmpf_def,
    Ideal.absf_def, ofBits_inf] at h
  exact real_of_abs_lt_top (v i) h

/-- A 32-bit word that is signed-nonnegative and signed-below 4096 has unsigned value below 4096. -/
theorem word_lt (a : BitVec 32) (h1 : IntOp.cmpi .sge a 0#32 = 1#1) (h2 : IntOp.cmpi .slt a 4096#32 = 1#1) :
    a.toNat < 4096 := by
  rw [IntOp.cmpi_sge] at h1
  rw [IntOp.cmpi_slt] at h2
  have e0 : (0#32 : BitVec 32).toInt = 0 := by decide
  have e1 : (4096#32 : BitVec 32).toInt = 4096 := by decide
  rw [e0] at h1
  rw [e1] at h2
  rw [BitVec.toInt_eq_toNat_cond] at h1 h2
  have := a.isLt
  split at h1 <;> omega

/-- Under the precondition every entry of `x`, `error` and `w` is a real number and every word of `edge_index` is a
    vertex id below 4096. -/
theorem decode (x err : FVec Ideal S128x4096 .f32) (w : FVec Ideal S4096x4096 .f32) (ei : IVec S2x262144 32)
    (h : fn (F := Ideal) x err w ei = fun _ => 1#1) :
    (∀ i, ∃ r : ℝ, (x i : EReal) = (r : EReal)) ∧ (∀ i, ∃ r : ℝ, (err i : EReal) = (r : EReal))
      ∧ (∀ i, ∃ r : ℝ, (w i : EReal) = (r : EReal)) ∧ (∀ i, (ei i).toNat < 4096) := by
  -- the predicate's one word, as the conjunction of its five `all` reductions
  have h0 := congrFun h ValueIdx.ix0
  dsimp only [fn, fn_part1] at h0
  simp only [andi, IntOp.andi_eq_one] at h0
  obtain ⟨⟨⟨⟨hx, he⟩, hw⟩, hge⟩, hlt⟩ := h0
  refine ⟨fun i => ?_, fun i => ?_, fun i => ?_, fun i => ?_⟩
  · exact float_entry _ Facts.h_S_ x i (Host.reduce_andi_all _ _ _ _ _ hx i)
  · exact float_entry _ Facts.h_S_ err i (Host.reduce_andi_all _ _ _ _ _ he i)
  · exact float_entry _ Facts.h_S_ w i (Host.reduce_andi_all _ _ _ _ _ hw i)
  · -- both signed compares at the word `ei i`, each against a broadcast constant
    have a := Host.reduce_andi_all _ _ _ _ _ hge i
    have b := Host.reduce_andi_all _ _ _ _ _ hlt i
    simp only [cmpi, bcast_scalar Facts.bcast_S_S2x262144 Facts.h_S_, constantI] at a b
    exact word_lt (ei i) a b

end Cert.PreRead

end
-- ==== Proof.KArrays.lean ====
/-
  The arrays of the kernel's program on one core, named at their literal types.

  Before the region the host code builds, from the four inputs, the dense matrix `M` [4096 × 4096], `fx = tanh x`,
  the copy of `error` the region reads, and `1 − fx²` for the epilogue; the region leaves the `mu` array [128 × 4096]
  and the two partial aggregates [2 × 128 × 4096]. Each is a function from indices to extended reals.
-/
import proofs.«427457_j19834158973336_3_alg».proof.Proof.Gen.KernelIdeal.Frame
import Idealize.ShloMosaic.Lib.ValueIdx

noncomputable section

open Idealize.ShloMosaic Idealize.ShloMosaic.TcCoe Idealize.SL.Sem Idealize.ShloMosaic.ValueIdx

namespace Cert.KernelIdeal.Arrays

open Cert.KernelIdeal Cert.KernelIdeal.Gen

variable (m : (ℓ : Loc nD τ sig) → Buf (Elt Ideal) ℓ)

/-- The inputs as launched. -/
abbrev xIn (c : Dev nD) : FVec Ideal S128x4096 .f32 := m ((c : Thread nD τ).loc main_arg0)
abbrev errIn (c : Dev nD) : FVec Ideal S128x4096 .f32 := m ((c : Thread nD τ).loc main_arg1)
abbrev wIn (c : Dev nD) : FVec Ideal S4096x4096 .f32 := m ((c : Thread nD τ).loc main_arg2)
abbrev eiIn (c : Dev nD) : IVec S2x262144 32 := m ((c : Thread nD τ).loc main_arg3)

/-- What the region finds: the dense matrix, `tanh x`, the error copy; and `1 − tanh² x`, which the epilogue reads. -/
abbrev Marr (c : Dev nD) : FVec Ideal S4096x4096 .bf16 := V m c main_v18
abbrev FXarr (c : Dev nD) : FVec Ideal S128x4096 .bf16 := V m c main_v23
abbrev ERarr (c : Dev nD) : FVec Ideal S128x4096 .bf16 := V m c main_v24
abbrev DFarr (c : Dev nD) : FVec Ideal S128x4096 .f32 := V m c main_v22

/-- What the region leaves: the `mu` array and the partial aggregates. -/
abbrev MUout (c : Dev nD) : FVec Ideal S128x4096 .f32 := (dats m 0 c).arrAt 3 cfg0.N
abbrev AGout (c : Dev nD) : FVec Ideal S2x128x4096 .f32 := (dats m 0 c).arrAt 4 cfg0.N

/-- Column `k` of the `j`-th block of 1024 columns. -/
def col (j : Fin 4) (k : Fin 1024) : Fin 4096 := ⟨1024 * j.val + k.val, by omega⟩
/-- Row `k` of the `j`-th block of 2048 rows. -/
def row (j : Fin 2) (k : Fin 2048) : Fin 4096 := ⟨2048 * j.val + k.val, by omega⟩

theorem col_bijective : Function.Bijective (fun p : Fin 4 × Fin 1024 => col p.1 p.2) := by
  constructor
  · rintro ⟨j, k⟩ ⟨j', k'⟩ h
    have h' : 1024 * j.val + k.val = 1024 * j'.val + k'.val := congrArg Fin.val h
    have hk := k.isLt
    have hk' := k'.isLt
    have hj : j = j' := Fin.ext (by omega)
    have hk2 : k = k' := Fin.ext (by omega)
    rw [hj, hk2]
  · intro v
    have hv := v.isLt
    refine ⟨(⟨v.val / 1024, by omega⟩, ⟨v.val % 1024, Nat.mod_lt _ (by decide)⟩), Fin.ext ?_⟩
    show 1024 * (v.val / 1024) + v.val % 1024 = v.val
    exact Nat.div_add_mod v.val 1024

theorem row_bijective : Function.Bijective (fun p : Fin 2 × Fin 2048 => row p.1 p.2) := by
  constructor
  · rintro ⟨j, k⟩ ⟨j', k'⟩ h
    have h' : 2048 * j.val + k.val = 2048 * j'.val + k'.val := congrArg Fin.val h
    have hk := k.isLt
    have hk' := k'.isLt
    have hj : j = j' := Fin.ext (by omega)
    have hk2 : k = k' := Fin.ext (by omega)
    rw [hj, hk2]
  · intro v
    have hv := v.isLt
    refine ⟨(⟨v.val / 2048, by omega⟩, ⟨v.val % 2048, Nat.mod_lt _ (by decide)⟩), Fin.ext ?_⟩
    show 2048 * (v.val / 2048) + v.val % 2048 = v.val
    exact Nat.div_add_mod v.val 2048

end Cert.KernelIdeal.Arrays

end
-- ==== Proof.Result.lean ====
/-
  The two results, as functions of the four inputs.

  `edge_index` [2 × E] lists E directed edges: row 0 the source vertex of each edge, row 1 its target, as 32-bit words
  (`vtx` reads a word as a vertex id below 4096). With f = tanh:

    mu[b, s]   = ∑ over the edges e leaving s of   f(x[b, tgt e]) · w[src e, tgt e]
    dEdx[b, t] = error[b, t] − ∑ over the edges e entering t of ((1 − f(x[b, tgt e])²) · error[b, src e]) · w[src e, tgt e]

  over the extended reals. Both programs are shown to end at these two arrays.
-/
import Idealize.ShloMosaic.PureOps.Ideal
import Idealize.ShloMosaic.Lib.ValueIdx

noncomputable section

open scoped BigOperators
open Idealize.ShloMosaic Idealize.ShloMosaic.ValueIdx Finset

namespace Cert.Result

abbrev SX : Shape := ⟨2, ![128, 4096]⟩
abbrev SW : Shape := ⟨2, ![4096, 4096]⟩
abbrev SE : Shape := ⟨2, ![2, 262144]⟩

/-- A vertex id read off a 32-bit word: the word's value when it is below 4096. -/
def vtx (b : BitVec 32) : Fin 4096 := ⟨b.toNat % 4096, Nat.mod_lt _ (by decide)⟩

theorem vtx_val {b : BitVec 32} (h : b.toNat < 4096) : (vtx b).val = b.toNat := Nat.mod_eq_of_lt h

/-- The source vertex of edge `e`. -/
def srcV (ei : IVec SE 32) (e : Fin 262144) : Fin 4096 := vtx (ei (ix2 (0 : Fin 2) e))
/-- The target vertex of edge `e`. -/
def tgtV (ei : IVec SE 32) (e : Fin 262144) : Fin 4096 := vtx (ei (ix2 (1 : Fin 2) e))

/-- `mu[b, s]`: the messages `tanh(x[b, tgt e]) · w[src e, tgt e]` summed over the edges leaving `s`. -/
def mu (x : FVec Ideal SX .f32) (w : FVec Ideal SW .f32) (ei : IVec SE 32) (b : Fin 128) (s : Fin 4096) : EReal :=
  ∑ e ∈ univ.filter (fun e : Fin 262144 => srcV ei e = s),
    Ideal.tanh (x (ix2 b (tgtV ei e))) * w (ix2 (srcV ei e) (tgtV ei e))

/-- `dEdx[b, t]`: the error less the messages `((1 − tanh²(x[b, tgt e])) · error[b, src e]) · w[src e, tgt e]` summed over
    the edges entering `t`. -/
def dEdx (x err : FVec Ideal SX .f32) (w : FVec Ideal SW .f32) (ei : IVec SE 32) (b : Fin 128) (t : Fin 4096) : EReal :=
  err (ix2 b t) - ∑ e ∈ univ.filter (fun e : Fin 262144 => tgtV ei e = t),
    ((1 - Ideal.tanh (x (ix2 b (tgtV ei e))) * Ideal.tanh (x (ix2 b (tgtV ei e)))) * err (ix2 b (srcV ei e)))
      * w (ix2 (srcV ei e) (tgtV ei e))

/-- The first result array. -/
def muArr (x : FVec Ideal SX .f32) (w : FVec Ideal SW .f32) (ei : IVec SE 32) : FVec Ideal SX .f32 :=
  fun i => mu x w ei (i 0) (i 1)

/-- The second result array. -/
def dEdxArr (x err : FVec Ideal SX .f32) (w : FVec Ideal SW .f32) (ei : IVec SE 32) : FVec Ideal SX .f32 :=
  fun i => dEdx x err w ei (i 0) (i 1)

end Cert.Result

end
-- ==== Proof.LibEdgeSums.lean ====
/-
  Sums over the edges of a finite directed multigraph, regrouped by vertex pair.

  A multigraph is two maps `src tgt : E → V` from a finite type of edges to a finite type of vertices; several
  edges may join the same ordered pair. `cnt src tgt s t` is the number of edges from `s` to `t`, written as the
  extended real that a sum of ones over those edges is. A sum over the edges that leave `s` (or that enter `t`) of a
  term that depends on the edge only through its end points is then a sum over vertices weighted by `cnt`:
  grouping the edges by their other end point. Over the extended reals the regrouping moves a factor across a sum,
  so it is stated for finite values; re-indexing a sum along a bijection (consecutive blocks of vertices) needs no
  finiteness.
-/
import Idealize.ShloMosaic.PureOps.Ideal

noncomputable section

open scoped BigOperators
open Finset

namespace Cert.EdgeSums

variable {E V : Type} [Fintype E] [DecidableEq E] [Fintype V] [DecidableEq V]

/-- The number of edges from `s` to `t`: a sum of ones over them, in the extended reals. -/
def cnt (src tgt : E → V) (s t : V) : EReal :=
  ∑ e ∈ univ.filter (fun e => src e = s ∧ tgt e = t), (1 : EReal)

/-- It is the cardinality of that set of edges, a real number. -/
theorem cnt_eq_card (src tgt : E → V) (s t : V) :
    cnt src tgt s t = (((univ.filter (fun e => src e = s ∧ tgt e = t)).card : ℝ) : EReal) := by
  unfold cnt
  rw [Finset.sum_const, ← EReal.coe_one, ← EReal.coe_nsmul, nsmul_eq_mul, mul_one]

/-- The coercion of a finite real sum is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Four consecutive blocks, added in order onto zero, are the whole sum: `blk j k` runs over every vertex once. -/
theorem sum_blocks4 {K : Type} [Fintype K] (f : V → EReal) (blk : Fin 4 → K → V)
    (hblk : Function.Bijective (fun p : Fin 4 × K => blk p.1 p.2)) :
    ((((0 : EReal) + ∑ k, f (blk 0 k)) + ∑ k, f (blk 1 k)) + ∑ k, f (blk 2 k)) + ∑ k, f (blk 3 k) = ∑ v, f v := by
  -- the sum over all vertices, re-indexed by (block, position), is the iterated sum over blocks and positions
  have h : ∑ v, f v = ∑ j : Fin 4, ∑ k, f (blk j k) := by
    rw [← (Equiv.ofBijective _ hblk).sum_comp f, Fintype.sum_prod_type]
    rfl
  rw [h, Fin.sum_univ_four, zero_add]

/-- Two blocks summed one after the other are the whole sum. -/
theorem sum_blocks2 {K : Type} [Fintype K] (f : V → EReal) (blk : Fin 2 → K → V)
    (hblk : Function.Bijective (fun p : Fin 2 × K => blk p.1 p.2)) :
    ∑ j : Fin 2, ∑ k, f (blk j k) = ∑ v, f v := by
  rw [← (Equiv.ofBijective _ hblk).sum_comp f, Fintype.sum_prod_type]
  rfl

/-- The regrouping by target over the reals: the edges leaving `s` are split into fibres of `tgt`; on the fibre
    over `t` the summand is the constant `a t * b s t`, and the fibre has `card` elements. -/
theorem real_sum_out_edges (src tgt : E → V) (s : V) (a : V → ℝ) (b : V → V → ℝ) :
    ∑ t, a t * (((univ.filter (fun e => src e = s ∧ tgt e = t)).card : ℝ) * b s t)
      = ∑ e ∈ univ.filter (fun e => src e = s), a (tgt e) * b (src e) (tgt e) := by
  rw [← Finset.sum_fiberwise (univ.filter (fun e => src e = s)) tgt]
  refine Finset.sum_congr rfl (fun t _ => ?_)
  rw [Finset.filter_filter]
  have hconst : ∀ e ∈ univ.filter (fun e => src e = s ∧ tgt e = t),
      a (tgt e) * b (src e) (tgt e) = a t * b s t := by
    intro e he
    obtain ⟨h1, h2⟩ := (Finset.mem_filter.mp he).2
    rw [h1, h2]
  rw [Finset.sum_congr rfl hconst, Finset.sum_const, nsmul_eq_mul]
  ring

/-- The regrouping by source over the reals, with a factor that depends on the target only moved inside the sum. -/
theorem real_sum_in_edges (src tgt : E → V) (t : V) (c a : V → ℝ) (b : V → V → ℝ) :
    c t * ∑ s, a s * (((univ.filter (fun e => src e = s ∧ tgt e = t)).card : ℝ) * b s t)
      = ∑ e ∈ univ.filter (fun e => tgt e = t), (c (tgt e) * a (src e)) * b (src e) (tgt e) := by
  rw [← Finset.sum_fiberwise (univ.filter (fun e => tgt e = t)) src, Finset.mul_sum]
  refine Finset.sum_congr rfl (fun s _ => ?_)
  rw [Finset.filter_filter]
  have hset : univ.filter (fun e => tgt e = t ∧ src e = s) = univ.filter (fun e => src e = s ∧ tgt e = t) :=
    Finset.filter_congr (fun e _ => and_comm)
  rw [hset]
  have hconst : ∀ e ∈ univ.filter (fun e => src e = s ∧ tgt e = t),
      (c (tgt e) * a (src e)) * b (src e) (tgt e) = (c t * a s) * b s t := by
    intro e he
    obtain ⟨h1, h2⟩ := (Finset.mem_filter.mp he).2
    rw [h1, h2]
  rw [Finset.sum_congr rfl hconst, Finset.sum_const, nsmul_eq_mul]
  ring

/-- EDGES LEAVING `s`, grouped by target: `∑ₜ th t · (cnt s t · w s t) = ∑_{e : src e = s} th (tgt e) · w (src e) (tgt e)`,
    for finite `th` and `w`. -/
theorem sum_out_edges (src tgt : E → V) (s : V) {th : V → EReal} {w : V → V → EReal}
    (hth : ∀ v, ∃ r : ℝ, th v = (r : EReal)) (hw : ∀ a b, ∃ r : ℝ, w a b = (r : EReal)) :
    ∑ t, th t * (cnt src tgt s t * w s t)
      = ∑ e ∈ univ.filter (fun e => src e = s), th (tgt e) * w (src e) (tgt e) := by
  choose a ha using hth
  choose b hb using hw
  obtain rfl : th = fun v => (a v : EReal) := funext ha
  obtain rfl : w = fun x y => (b x y : EReal) := funext (fun x => funext (hb x))
  simp only [cnt_eq_card, ← EReal.coe_mul, ← coe_sum]
  rw [real_sum_out_edges]

/-- EDGES ENTERING `t`, grouped by source, with a factor `d t` that depends on the target only moved inside:
    `d t · ∑ₛ er s · (cnt s t · w s t) = ∑_{e : tgt e = t} (d (tgt e) · er (src e)) · w (src e) (tgt e)`, for finite values. -/
theorem sum_in_edges (src tgt : E → V) (t : V) {d er : V → EReal} {w : V → V → EReal}
    (hd : ∀ v, ∃ r : ℝ, d v = (r : EReal)) (her : ∀ v, ∃ r : ℝ, er v = (r : EReal))
    (hw : ∀ a b, ∃ r : ℝ, w a b = (r : EReal)) :
    d t * ∑ s, er s * (cnt src tgt s t * w s t)
      = ∑ e ∈ univ.filter (fun e => tgt e = t), (d (tgt e) * er (src e)) * w (src e) (tgt e) := by
  choose c hc using hd
  choose a ha using her
  choose b hb using hw
  obtain rfl : d = fun v => (c v : EReal) := funext hc
  obtain rfl : er = fun v => (a v : EReal) := funext ha
  obtain rfl : w = fun x y => (b x y : EReal) := funext (fun x => funext (hb x))
  simp only [cnt_eq_card, ← EReal.coe_mul, ← coe_sum]
  rw [real_sum_in_edges]

end Cert.EdgeSums

end
-- ==== Proof.EdgeIndex.lean ====
/-
  Where the edge-indexed host operations of the two programs read and write, for vertex ids in range.

  The reference gathers `w` at the pair (source, target) of each edge, gathers a column of `x` (and of `error`) at
  the target (source) of each edge, and scatter-adds a column per edge into the column its source (target) names.
  The kernel scatter-adds one number per edge into a flat array of 4096 · 4096 cells at position 4096 · source + target.
  For words that are vertex ids below 4096 (flat positions below 4096²) the clamped gather index is the id itself and
  no scattered update is dropped, so each operation reads, at an index, as plain indexing by the ids: the gathers as
  the operand at those coordinates, the accumulating scatters (at the ideal instance: the exact sum of the updates
  landing on a cell) as the cell's initial value plus the sum over the edges whose id is that cell.
-/
import proofs.«427457_j19834158973336_3_alg».proof.KernelIdeal
import proofs.«427457_j19834158973336_3_alg».proof.ReferenceIdeal
import proofs.«427457_j19834158973336_3_alg».proof.Proof.Result
import Idealize.ShloMosaic.PureOps.Ideal
import Idealize.ShloMosaic.Lib.ValueIdx
import Idealize.ShloMosaic.Lib.StableHlo.Predicate

noncomputable section

open scoped BigOperators
open Idealize.ShloMosaic Idealize.ShloMosaic.ValueIdx Finset

namespace Cert.EdgeIndex

open Cert.Result (vtx vtx_val)

/-- A word below 4096, read signed and clamped into [0, 4095], is the vertex id it names: it is nonnegative as a
    signed integer (below 2³¹), and the clamp's upper end 4095 is not reached. -/
theorem clamp_vtx {b : BitVec 32} (h : b.toNat < 4096) : min b.toInt.toNat (4096 - 1) = (vtx b).val := by
  rw [StableHlo.Predicate.toInt_eq_toNat_of_lt (by omega), Int.toNat_natCast, vtx_val h]
  exact Nat.min_eq_left (by omega)

section Reference

open Cert.ReferenceIdeal

variable [Cert.ReferenceIdeal.Facts]

/-- The gather of `w` at the index pairs (row `e` of the [E × 2] table): entry `e` is `w` at (word 0, word 1) of row `e`.
    Both operand axes are collapsed and start-indexed: on axis `k` the operand coordinate is the clamped word `k` of
    row `e`, with no batching and no offset part. -/
theorem gather_pair_apply {α : Type} (x : S4096x4096.Idx → α) (idx : IVec S262144x2 32) (e : Fin 262144)
    (h0 : (idx (ix2 e (0 : Fin 2))).toNat < 4096) (h1 : (idx (ix2 e (1 : Fin 2))).toNat < 4096) :
    Host.gather gather_S4096x4096_S262144x2_S262144_n_01_n_n_01_1_11 x idx (ix1 e)
      = x (ix2 (vtx (idx (ix2 e (0 : Fin 2)))) (vtx (idx (ix2 e (1 : Fin 2))))) := by
  unfold Host.gather
  congr 1
  funext a
  refine Fin.ext ?_
  match a with
  | ⟨0, _⟩ =>
    show gather_S4096x4096_S262144x2_S262144_n_01_n_n_01_1_11.start (ix1 e) idx 0
        + gather_S4096x4096_S262144x2_S262144_n_01_n_n_01_1_11.batchCoord (ix1 e) 0
        + gather_S4096x4096_S262144x2_S262144_n_01_n_n_01_1_11.offCoord (ix1 e) 0 = (vtx (idx (ix2 e (0 : Fin 2)))).val
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S4096x4096_S262144x2_S262144_n_01_n_n_01_1_11.startIndexMap from List.mem_cons_self ..)]
    have hsi : gather_S4096x4096_S262144x2_S262144_n_01_n_n_01_1_11.siIdx (ix1 e)
        ⟨List.idxOf (0 : Fin 2) gather_S4096x4096_S262144x2_S262144_n_01_n_n_01_1_11.startIndexMap,
          List.idxOf_lt_length_iff.2 (List.mem_cons_self ..)⟩ = ix2 e (0 : Fin 2) := by
      funext b; refine Fin.ext ?_
      match b with
      | ⟨0, _⟩ => rfl
      | ⟨1, _⟩ => rfl
    rw [hsi]
    exact clamp_vtx h0
  | ⟨1, _⟩ =>
    show gather_S4096x4096_S262144x2_S262144_n_01_n_n_01_1_11.start (ix1 e) idx 1
        + gather_S4096x4096_S262144x2_S262144_n_01_n_n_01_1_11.batchCoord (ix1 e) 1
        + gather_S4096x4096_S262144x2_S262144_n_01_n_n_01_1_11.offCoord (ix1 e) 1 = (vtx (idx (ix2 e (1 : Fin 2)))).val
    rw [GatherDims.batchCoord_eq_zero _ _ _ List.not_mem_nil,
      GatherDims.offCoord_eq_zero _ _ _ (fun h => ((GatherDims.mem_sKept _ _).mp h).1 (List.mem_cons_of_mem _ (List.mem_cons_self ..)))]
    simp only [Nat.add_zero]
    unfold GatherDims.start
    rw [dif_pos (show (1 : Fin 2) ∈ gather_S4096x4096_S262144x2_S262144_n_01_n_n_01_1_11.startIndexMap from List.mem_cons_of_mem _ (List.mem_cons_self ..))]
    have hsi : gather_S4096x4096_S262144x2_S262144_n_01_n_n_01_1_11.siIdx (ix1 e)
        ⟨List.idxOf (1 : Fin 2) gather_S4096x4096_S262144x2_S262144_n_01_n_n_01_1_11.startIndexMap,
          List.idxOf_lt_length_iff.2 (List.mem_cons_of_mem _ (List.mem_cons_self ..))⟩ = ix2 e (1 : Fin 2) := by
      funext b; refine Fin.ext ?_
      match b with
      | ⟨0, _⟩ => rfl
      | ⟨1, _⟩ => rfl
    rw [hsi]
    exact clamp_vtx h1

/-- The gather of whole columns: entry (b, e) is the operand at row `b`, column the word of row `e` of the [E × 1] table.
    Axis 0 is the one offset axis (coordinate `b`, start 0); axis 1 is collapsed and start-indexed (the clamped word). -/
theorem gather_col_apply {α : Type} (x : S128x4096.Idx → α) (idx : IVec S262144x1 32) (b : Fin 128) (e : Fin 262144)
    (h : (idx (ix2 e (0 : Fin 1))).toNat < 4096) :
    Host.gather gather_S128x4096_S262144x1_S128x262144_0_1_n_n_1_1_1281 x idx (ix2 b e)
      = x (ix2 b (vtx (idx (ix2 e (0 : Fin 1))))) := by
  unfold Host.gather
  congr 1
  funext a
  refine Fin.ext ?_
  match a with
  | ⟨0, _⟩ =>
    show gather_S128x4096_S262144x1_S128x262144_0_1_n_n_1_1_1281.start (ix2 b e) idx 0
        + gather_S128x4096_S262144x1_S128x262144_0_1_n_n_1_1_1281.batchCoord (ix2 b e) 0
        + gather_S128x4096_S262144x1_S128x262144_0_1_n_n_1_1_1281.offCoord (ix2 b e) 0 = b.val
    rw [GatherDims.batchCoord_eq_zero _ _ _ List.not_mem_nil]
    unfold GatherDims.start GatherDims.offCoord
    rw [dif_neg (show (0 : Fin 2) ∉ gather_S128x4096_S262144x1_S128x262144_0_1_n_n_1_1_1281.startIndexMap from (by decide : (0 : Fin 2) ∉ ([1] : List (Fin 2)))),
      dif_pos (show (0 : Fin 2) ∈ gather_S128x4096_S262144x1_S128x262144_0_1_n_n_1_1_1281.sKept from (by decide : (0 : Fin 2) ∈ Shape.kept S128x4096 ([1] ++ [])))]
    simp only [Nat.add_zero, Nat.zero_add]
    rfl
  | ⟨1, _⟩ =>
    show gather_S128x4096_S262144x1_S128x262144_0_1_n_n_1_1_1281.start (ix2 b e) idx 1
        + gather_S128x4096_S262144x1_S128x262144_0_1_n_n_1_1_1281.batchCoord (ix2 b e) 1
        + gather_S128x4096_S262144x1_S128x262144_0_1_n_n_1_1_1281.offCoord (ix2 b e) 1 = (vtx (idx (ix2 e (0 : Fin 1)))).val
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (1 : Fin 2) ∈ gather_S128x4096_S262144x1_S128x262144_0_1_n_n_1_1_1281.startIndexMap from List.mem_cons_self ..)]
    have hsi : gather_S128x4096_S262144x1_S128x262144_0_1_n_n_1_1_1281.siIdx (ix2 b e)
        ⟨List.idxOf (1 : Fin 2) gather_S128x4096_S262144x1_S128x262144_0_1_n_n_1_1_1281.startIndexMap,
          List.idxOf_lt_length_iff.2 (List.mem_cons_self ..)⟩ = ix2 e (0 : Fin 1) := by
      funext c; refine Fin.ext ?_
      match c with
      | ⟨0, _⟩ => rfl
      | ⟨1, _⟩ => rfl
    rw [hsi]
    exact clamp_vtx h

/-- Where update (b, e) of the column scatter lands: row `b`, the column its word names. -/
theorem scatter_col_resultIdx (idx : IVec S262144x1 32) (b : Fin 128) (e : Fin 262144)
    (h : (idx (ix2 e (0 : Fin 1))).toNat < 4096) :
    scatter_S128x4096_S262144x1_S128x262144_0_1_1_1.resultIdx? (ix2 b e) idx
      = some (ix2 b (vtx (idx (ix2 e (0 : Fin 1))))) := by
  have hs0 : scatter_S128x4096_S262144x1_S128x262144_0_1_1_1.start (ix2 b e) idx 0 = 0 := by
    unfold ScatterDims.start
    rw [dif_neg (show (0 : Fin 2) ∉ scatter_S128x4096_S262144x1_S128x262144_0_1_1_1.scatterDimsToOperandDims from (by decide : (0 : Fin 2) ∉ ([1] : List (Fin 2))))]
  have hw0 : scatter_S128x4096_S262144x1_S128x262144_0_1_1_1.window (ix2 b e) 0 = b.val := by
    unfold ScatterDims.window
    rw [dif_pos (show (0 : Fin 2) ∈ scatter_S128x4096_S262144x1_S128x262144_0_1_1_1.sKept from (by decide : (0 : Fin 2) ∈ Shape.kept S128x4096 [1]))]
    rfl
  have hs1 : scatter_S128x4096_S262144x1_S128x262144_0_1_1_1.start (ix2 b e) idx 1 = ((idx (ix2 e (0 : Fin 1))).toNat : Int) := by
    unfold ScatterDims.start
    rw [dif_pos (show (1 : Fin 2) ∈ scatter_S128x4096_S262144x1_S128x262144_0_1_1_1.scatterDimsToOperandDims from List.mem_cons_self ..)]
    have hsi : scatter_S128x4096_S262144x1_S128x262144_0_1_1_1.siIdx (ix2 b e)
        ⟨List.idxOf (1 : Fin 2) scatter_S128x4096_S262144x1_S128x262144_0_1_1_1.scatterDimsToOperandDims,
          List.idxOf_lt_length_iff.2 (List.mem_cons_self ..)⟩ = ix2 e (0 : Fin 1) := by
      funext c; refine Fin.ext ?_
      match c with
      | ⟨0, _⟩ => rfl
      | ⟨1, _⟩ => rfl
    rw [hsi]
    exact StableHlo.Predicate.toInt_eq_toNat_of_lt (by omega)
  have hw1 : scatter_S128x4096_S262144x1_S128x262144_0_1_1_1.window (ix2 b e) 1 = 0 := by
    unfold ScatterDims.window
    rw [dif_neg (show (1 : Fin 2) ∉ scatter_S128x4096_S262144x1_S128x262144_0_1_1_1.sKept from (by decide : (1 : Fin 2) ∉ Shape.kept S128x4096 [1]))]
  have hall : ∀ a : Fin S128x4096.rank,
      0 ≤ scatter_S128x4096_S262144x1_S128x262144_0_1_1_1.start (ix2 b e) idx a
          + (scatter_S128x4096_S262144x1_S128x262144_0_1_1_1.window (ix2 b e) a : Int)
      ∧ scatter_S128x4096_S262144x1_S128x262144_0_1_1_1.start (ix2 b e) idx a
          + (scatter_S128x4096_S262144x1_S128x262144_0_1_1_1.window (ix2 b e) a : Int) < (S128x4096.size a : Int) := by
    intro a
    match a with
    | ⟨0, _⟩ =>
      show 0 ≤ scatter_S128x4096_S262144x1_S128x262144_0_1_1_1.start (ix2 b e) idx 0
          + (scatter_S128x4096_S262144x1_S128x262144_0_1_1_1.window (ix2 b e) 0 : Int)
        ∧ scatter_S128x4096_S262144x1_S128x262144_0_1_1_1.start (ix2 b e) idx 0
          + (scatter_S128x4096_S262144x1_S128x262144_0_1_1_1.window (ix2 b e) 0 : Int) < ((128 : Nat) : Int)
      rw [hs0, hw0]
      have := b.isLt
      omega
    | ⟨1, _⟩ =>
      show 0 ≤ scatter_S128x4096_S262144x1_S128x262144_0_1_1_1.start (ix2 b e) idx 1
          + (scatter_S128x4096_S262144x1_S128x262144_0_1_1_1.window (ix2 b e) 1 : Int)
        ∧ scatter_S128x4096_S262144x1_S128x262144_0_1_1_1.start (ix2 b e) idx 1
          + (scatter_S128x4096_S262144x1_S128x262144_0_1_1_1.window (ix2 b e) 1 : Int) < ((4096 : Nat) : Int)
      rw [hs1, hw1]
      omega
  unfold ScatterDims.resultIdx?
  rw [dif_pos hall]
  congr 1
  funext a
  refine Fin.ext ?_
  match a with
  | ⟨0, _⟩ =>
    show (scatter_S128x4096_S262144x1_S128x262144_0_1_1_1.start (ix2 b e) idx 0
          + (scatter_S128x4096_S262144x1_S128x262144_0_1_1_1.window (ix2 b e) 0 : Int)).toNat = b.val
    rw [hs0, hw0]
    omega
  | ⟨1, _⟩ =>
    show (scatter_S128x4096_S262144x1_S128x262144_0_1_1_1.start (ix2 b e) idx 1
          + (scatter_S128x4096_S262144x1_S128x262144_0_1_1_1.window (ix2 b e) 1 : Int)).toNat = (vtx (idx (ix2 e (0 : Fin 1)))).val
    rw [hs1, hw1, vtx_val h]
    omega

/-- The accumulating scatter of columns, at the ideal instance: cell (b, s) ends at its initial value plus the sum of
    the updates (b, e) over the edges `e` whose word is `s`. The updates landing on (b, s) are exactly the (b, e) with
    word `s`, and e ↦ (b, e) is a bijection from those edges onto them. -/
theorem scatter_col_apply (x0 : S128x4096.Idx → EReal) (idx : IVec S262144x1 32) (upd : S128x262144.Idx → EReal)
    (h : ∀ e : Fin 262144, (idx (ix2 e (0 : Fin 1))).toNat < 4096) (b : Fin 128) (s : Fin 4096) :
    Ideal.hostScatterAdd scatter_S128x4096_S262144x1_S128x262144_0_1_1_1 x0 idx upd (ix2 b s)
      = x0 (ix2 b s) + ∑ e ∈ univ.filter (fun e : Fin 262144 => vtx (idx (ix2 e (0 : Fin 1))) = s), upd (ix2 b e) := by
  have hkey : ∀ (a : Fin 128) (c : Fin 262144),
      scatter_S128x4096_S262144x1_S128x262144_0_1_1_1.resultIdx? (ix2 a c) idx = some (ix2 b s)
        ↔ (a = b ∧ vtx (idx (ix2 c (0 : Fin 1))) = s) := by
    intro a c
    rw [scatter_col_resultIdx idx a c (h c)]
    constructor
    · intro hh
      have h2 := Option.some.inj hh
      exact ⟨congrFun h2 0, congrFun h2 1⟩
    · rintro ⟨rfl, rfl⟩
      rfl
  unfold Ideal.hostScatterAdd
  refine congrArg (fun t => x0 (ix2 b s) + t) ?_
  refine Finset.sum_bij' (fun j _ => (j 1 : Fin 262144)) (fun e _ => ix2 b e) ?_ ?_ ?_ ?_ ?_
  · intro j hj
    obtain ⟨a, c, rfl⟩ : ∃ (a : Fin 128) (c : Fin 262144), j = ix2 a c := ⟨j 0, j 1, eq_ix2 j⟩
    exact Finset.mem_filter.2 ⟨Finset.mem_univ _, ((hkey a c).1 (Finset.mem_filter.1 hj).2).2⟩
  · intro e he
    exact Finset.mem_filter.2 ⟨Finset.mem_univ _, (hkey b e).2 ⟨rfl, (Finset.mem_filter.1 he).2⟩⟩
  · intro j hj
    obtain ⟨a, c, rfl⟩ : ∃ (a : Fin 128) (c : Fin 262144), j = ix2 a c := ⟨j 0, j 1, eq_ix2 j⟩
    obtain rfl : a = b := ((hkey a c).1 (Finset.mem_filter.1 hj).2).1
    rfl
  · intro e _
    rfl
  · intro j hj
    obtain ⟨a, c, rfl⟩ : ∃ (a : Fin 128) (c : Fin 262144), j = ix2 a c := ⟨j 0, j 1, eq_ix2 j⟩
    obtain rfl : a = b := ((hkey a c).1 (Finset.mem_filter.1 hj).2).1
    rfl

end Reference

section Kernel

open Cert.KernelIdeal

variable [Cert.KernelIdeal.Facts]

/-- Where update `e` of the flat scatter lands: the cell its word names. -/
theorem scatter_flat_resultIdx (idx : IVec S262144x1 32) (e : Fin 262144)
    (h : (idx (ix2 e (0 : Fin 1))).toNat < 16777216) :
    scatter_S16777216_S262144x1_S262144_n_0_0_1.resultIdx? (ix1 e) idx
      = some (ix1 (⟨(idx (ix2 e (0 : Fin 1))).toNat, h⟩ : Fin 16777216)) := by
  have hs0 : scatter_S16777216_S262144x1_S262144_n_0_0_1.start (ix1 e) idx 0 = ((idx (ix2 e (0 : Fin 1))).toNat : Int) := by
    unfold ScatterDims.start
    rw [dif_pos (show (0 : Fin 1) ∈ scatter_S16777216_S262144x1_S262144_n_0_0_1.scatterDimsToOperandDims from List.mem_cons_self ..)]
    have hsi : scatter_S16777216_S262144x1_S262144_n_0_0_1.siIdx (ix1 e)
        ⟨List.idxOf (0 : Fin 1) scatter_S16777216_S262144x1_S262144_n_0_0_1.scatterDimsToOperandDims,
          List.idxOf_lt_length_iff.2 (List.mem_cons_self ..)⟩ = ix2 e (0 : Fin 1) := by
      funext c; refine Fin.ext ?_
      match c with
      | ⟨0, _⟩ => rfl
      | ⟨1, _⟩ => rfl
    rw [hsi]
    exact StableHlo.Predicate.toInt_eq_toNat_of_lt (by omega)
  have hw0 : scatter_S16777216_S262144x1_S262144_n_0_0_1.window (ix1 e) 0 = 0 := by
    unfold ScatterDims.window
    rw [dif_neg (show (0 : Fin 1) ∉ scatter_S16777216_S262144x1_S262144_n_0_0_1.sKept from (by decide : (0 : Fin 1) ∉ Shape.kept S16777216 [0]))]
  have hall : ∀ a : Fin S16777216.rank,
      0 ≤ scatter_S16777216_S262144x1_S262144_n_0_0_1.start (ix1 e) idx a
          + (scatter_S16777216_S262144x1_S262144_n_0_0_1.window (ix1 e) a : Int)
      ∧ scatter_S16777216_S262144x1_S262144_n_0_0_1.start (ix1 e) idx a
          + (scatter_S16777216_S262144x1_S262144_n_0_0_1.window (ix1 e) a : Int) < (S16777216.size a : Int) := by
    intro a
    match a with
    | ⟨0, _⟩ =>
      show 0 ≤ scatter_S16777216_S262144x1_S262144_n_0_0_1.start (ix1 e) idx 0
          + (scatter_S16777216_S262144x1_S262144_n_0_0_1.window (ix1 e) 0 : Int)
        ∧ scatter_S16777216_S262144x1_S262144_n_0_0_1.start (ix1 e) idx 0
          + (scatter_S16777216_S262144x1_S262144_n_0_0_1.window (ix1 e) 0 : Int) < ((16777216 : Nat) : Int)
      rw [hs0, hw0]
      omega
  unfold ScatterDims.resultIdx?
  rw [dif_pos hall]
  congr 1
  funext a
  refine Fin.ext ?_
  match a with
  | ⟨0, _⟩ =>
    show (scatter_S16777216_S262144x1_S262144_n_0_0_1.start (ix1 e) idx 0
          + (scatter_S16777216_S262144x1_S262144_n_0_0_1.window (ix1 e) 0 : Int)).toNat = (idx (ix2 e (0 : Fin 1))).toNat
    rw [hs0, hw0]
    omega

/-- The accumulating scatter into the flat array, at the ideal instance: cell `p` ends at its initial value plus the sum
    of the updates over the edges whose flat position is `p`. -/
theorem scatter_flat_apply (x0 : S16777216.Idx → EReal) (idx : IVec S262144x1 32) (upd : S262144.Idx → EReal)
    (h : ∀ e : Fin 262144, (idx (ix2 e (0 : Fin 1))).toNat < 16777216) (p : Fin 16777216) :
    Ideal.hostScatterAdd scatter_S16777216_S262144x1_S262144_n_0_0_1 x0 idx upd (ix1 p)
      = x0 (ix1 p) + ∑ e ∈ univ.filter (fun e : Fin 262144 => (idx (ix2 e (0 : Fin 1))).toNat = p.val), upd (ix1 e) := by
  have hkey : ∀ c : Fin 262144,
      scatter_S16777216_S262144x1_S262144_n_0_0_1.resultIdx? (ix1 c) idx = some (ix1 p)
        ↔ (idx (ix2 c (0 : Fin 1))).toNat = p.val := by
    intro c
    rw [scatter_flat_resultIdx idx c (h c)]
    constructor
    · intro hh
      exact congrArg Fin.val (congrFun (Option.some.inj hh) 0)
    · intro hh
      have hp : (⟨(idx (ix2 c (0 : Fin 1))).toNat, h c⟩ : Fin 16777216) = p := Fin.ext hh
      rw [hp]
  unfold Ideal.hostScatterAdd
  refine congrArg (fun t => x0 (ix1 p) + t) ?_
  refine Finset.sum_bij' (fun j _ => (j 0 : Fin 262144)) (fun e _ => ix1 e) ?_ ?_ ?_ ?_ ?_
  · intro j hj
    obtain ⟨c, rfl⟩ : ∃ c : Fin 262144, j = ix1 c := ⟨j 0, eq_ix1 j⟩
    exact Finset.mem_filter.2 ⟨Finset.mem_univ _, (hkey c).1 (Finset.mem_filter.1 hj).2⟩
  · intro e he
    exact Finset.mem_filter.2 ⟨Finset.mem_univ _, (hkey e).2 (Finset.mem_filter.1 he).2⟩
  · intro j _
    exact (eq_ix1 j).symm
  · intro e _
    rfl
  · intro j _
    exact congrArg upd (eq_ix1 j)

end Kernel

end Cert.EdgeIndex

end
-- ==== Proof.KHost.lean ====
/-
  What the host code before the region computes, read at an index.

  From `edge_index` the host forms, per edge, the flat position 4096 · src + tgt (32-bit arithmetic: for ids below 4096
  it does not wrap and is non-negative, so the index normalisation that follows leaves it alone), scatter-adds a 1 per edge into
  4096² zeros, reshapes the counts to [4096 × 4096] and multiplies by `w`: entry (s, t) of the dense matrix is the number of
  edges from `s` to `t` times `w[s, t]` (the flat position determines the pair: division with remainder by 4096). It also
  forms `tanh x`, `1 − tanh² x` and a copy of `error`; a change of float format is the identity at the ideal instance.
-/
import proofs.«427457_j19834158973336_3_alg».proof.Proof.KArrays
import proofs.«427457_j19834158973336_3_alg».proof.Proof.Result
import proofs.«427457_j19834158973336_3_alg».proof.Proof.LibEdgeSums
import proofs.«427457_j19834158973336_3_alg».proof.Proof.EdgeIndex
import Idealize.ShloMosaic.PureOps.Ideal.Laws
import Idealize.ShloMosaic.Lib.Pipeline.Value
import Idealize.ShloMosaic.Lib.StableHlo.Run
import Idealize.ShloMosaic.Lib.ValueIdx
import Idealize.ShloMosaic.Lib.ValueLayout
import Idealize.ShloMosaic.Lib.StableHlo.Predicate

noncomputable section

open scoped BigOperators
open Idealize.ShloMosaic Idealize.ShloMosaic.TcCoe Idealize.SL.Sem Idealize.ShloMosaic.ValueIdx Finset

namespace Cert.KernelIdeal.HostIn

open Cert.KernelIdeal Cert.KernelIdeal.Gen Cert.KernelIdeal.Arrays Cert.Result

variable (m : (ℓ : Loc nD τ sig) → Buf (Elt Ideal) ℓ)

/-- The bit pattern of the float 1.0 denotes the extended real 1. -/
theorem ofBits_one_f32 : Ideal.ofBits .f32 0x3F800000#32 = 1 := by
  simp [Ideal.ofBits, Ideal.ieee, -EReal.coe_mul]
  norm_num

/-- For ids below 4096 the 32-bit flat position `4096 · a + b` does not wrap. -/
theorem flat_toNat (a b : BitVec 32) (ha : a.toNat < 4096) (hb : b.toNat < 4096) :
    (IntOp.addi (IntOp.muli a 4096#32) b).toNat = 4096 * a.toNat + b.toNat := by
  unfold IntOp.addi IntOp.muli
  rw [BitVec.toNat_add, BitVec.toNat_mul]
  have h4 : (4096#32 : BitVec 32).toNat = 4096 := by decide
  rw [h4]
  omega

/-- It is non-negative as a signed word, so the index normalisation (add 4096² to a negative index) leaves it alone. -/
theorem norm_flat (a b : BitVec 32) (ha : a.toNat < 4096) (hb : b.toNat < 4096) :
    Scalar.select (IntOp.cmpi .slt (IntOp.addi (IntOp.muli a 4096#32) b) 0#32)
        (IntOp.addi (IntOp.addi (IntOp.muli a 4096#32) b) 16777216#32) (IntOp.addi (IntOp.muli a 4096#32) b)
      = IntOp.addi (IntOp.muli a 4096#32) b := by
  have hf := flat_toNat a b ha hb
  have hne : ¬ IntOp.cmpi .slt (IntOp.addi (IntOp.muli a 4096#32) b) 0#32 = 1#1 := by
    rw [StableHlo.Predicate.slt_iff_toNat (by omega) (by decide)]
    exact Nat.not_lt_zero _
  rw [eq_zero_of_ne_one hne, select_zero]

/-- A flat position determines its pair of ids: division with remainder by 4096. -/
theorem pos_iff (a b : BitVec 32) (ha : a.toNat < 4096) (hb : b.toNat < 4096) (s t : Fin 4096) :
    4096 * a.toNat + b.toNat = 4096 * s.val + t.val ↔ vtx a = s ∧ vtx b = t := by
  have hs := s.isLt
  have ht := t.isLt
  constructor
  · intro h
    exact ⟨Fin.ext (by rw [vtx_val ha]; omega), Fin.ext (by rw [vtx_val hb]; omega)⟩
  · rintro ⟨h1, h2⟩
    have e1 := congrArg Fin.val h1
    have e2 := congrArg Fin.val h2
    rw [vtx_val ha] at e1
    rw [vtx_val hb] at e2
    omega

/-- The source ids as the host reads them: row 0 of `edge_index`, flattened. -/
def srcW (ei : IVec S2x262144 32) : IVec S262144 32 :=
  shapeCast S262144 (extractStridedSlice S1x262144 ![0, 0] ei slices_S2x262144_S1x262144_0_0) shapeCasts_S1x262144_S262144

/-- The target ids: row 1, flattened. -/
def tgtW (ei : IVec S2x262144 32) : IVec S262144 32 :=
  shapeCast S262144 (extractStridedSlice S1x262144 ![1, 0] ei slices_S2x262144_S1x262144_1_0) shapeCasts_S1x262144_S262144

/-- The flat positions `4096 · src + tgt`, in 32-bit arithmetic. -/
def flatW (ei : IVec S2x262144 32) : IVec S262144 32 :=
  addi (muli (srcW ei) (broadcastInDim S262144 ![] bcast_S_S262144 (constantI S_ 32 4096#32))) (tgtW ei)

/-- The scatter's index column: the flat positions after the index normalisation (a negative index has 4096² added). -/
def idxW (ei : IVec S2x262144 32) : IVec S262144x1 32 :=
  broadcastInDim S262144x1 ![0] bcast_S262144_S262144x1_0
    (select (cmpi CmpIPredicate.slt (flatW ei) (broadcastInDim S262144 ![] bcast_S_S262144 (constantI S_ 32 0#32)))
      (addi (flatW ei) (broadcastInDim S262144 ![] bcast_S_S262144 (constantI S_ 32 16777216#32)))
      (flatW ei))

/-- The dense matrix: a 1 per edge scatter-added into 4096² zeros, reshaped, times `w`, in the narrower format. -/
def denseW (ei : IVec S2x262144 32) (w : FVec Ideal S4096x4096 .f32) : FVec Ideal S4096x4096 .bf16 :=
  truncf .bf16
    (mulf
      (shapeCast S4096x4096
        (Host.scatterAdd (F := Ideal) scatter_S16777216_S262144x1_S262144_n_0_0_1
          (broadcastInDim S16777216 ![] bcast_S_S16777216 (constant (F := Ideal) S_ .f32 0x00000000#32))
          (idxW ei)
          (broadcastInDim S262144 ![] bcast_S_S262144 (constant (F := Ideal) S_ .f32 0x3F800000#32)))
        shapeCasts_S16777216_S4096x4096)
      w)
    bitsLt_bf16_f32

/-- The array the region finds is that term of the launched inputs. -/
theorem Marr_eq (c : Dev nD) : Marr m c = denseW (eiIn m c) (wIn m c) := by
  show StableHlo.after hostOps0 (fun b => m (c, b)) (Proc.devRef .tc main_v18) = _
  after_results
  rfl

/-- Row 0 of `edge_index`, flattened, read at edge `e`. -/
theorem srcW_apply (ei : IVec S2x262144 32) (e : Fin 262144) : srcW ei (ix1 e) = ei (ix2 (0 : Fin 2) e) := by
  unfold srcW
  rw [shapeCast_apply _ _ (ix1 e) (ix2 (0 : Fin 1) e)
    (by rw [Shape.rowMajor_val_two, Shape.rowMajor_val_one]; show 0 * 262144 + e.val = e.val; omega)]
  refine extractStridedSlice_apply _ _ _ (ix2 (0 : Fin 1) e) (ix2 (0 : Fin 2) e) ?_
  intro (a : Fin 2)
  match a with
  | ⟨0, _⟩ => rfl
  | ⟨1, _⟩ => show e.val = 0 + e.val; omega

/-- Row 1 of `edge_index`, flattened, read at edge `e`. -/
theorem tgtW_apply (ei : IVec S2x262144 32) (e : Fin 262144) : tgtW ei (ix1 e) = ei (ix2 (1 : Fin 2) e) := by
  unfold tgtW
  rw [shapeCast_apply _ _ (ix1 e) (ix2 (0 : Fin 1) e)
    (by rw [Shape.rowMajor_val_two, Shape.rowMajor_val_one]; show 0 * 262144 + e.val = e.val; omega)]
  refine extractStridedSlice_apply _ _ _ (ix2 (0 : Fin 1) e) (ix2 (1 : Fin 2) e) ?_
  intro (a : Fin 2)
  match a with
  | ⟨0, _⟩ => rfl
  | ⟨1, _⟩ => show e.val = 0 + e.val; omega

/-- The flat position of edge `e`, as a word. -/
theorem flatW_apply (ei : IVec S2x262144 32) (e : Fin 262144) :
    flatW ei (ix1 e) = IntOp.addi (IntOp.muli (ei (ix2 (0 : Fin 2) e)) 4096#32) (ei (ix2 (1 : Fin 2) e)) := by
  unfold flatW
  show IntOp.addi (IntOp.muli (srcW ei (ix1 e))
      (broadcastInDim S262144 ![] bcast_S_S262144 (constantI S_ 32 4096#32) (ix1 e))) (tgtW ei (ix1 e)) = _
  rw [srcW_apply, tgtW_apply, StableHlo.Predicate.bcast_scalar _ (by decide)]
  rfl

/-- For ids in range the index column holds the flat position itself. -/
theorem idxW_apply (ei : IVec S2x262144 32) (hr : ∀ i, (ei i).toNat < 4096) (e : Fin 262144) :
    idxW ei (ix2 e (0 : Fin 1)) = IntOp.addi (IntOp.muli (ei (ix2 (0 : Fin 2) e)) 4096#32) (ei (ix2 (1 : Fin 2) e)) := by
  unfold idxW
  rw [broadcastInDim_apply _ _ _ (ix2 e (0 : Fin 1)) (ix1 e) (by
    intro (a : Fin 1)
    match a with
    | ⟨0, _⟩ => show e.val = if (262144 : Nat) = 1 then 0 else e.val; rw [if_neg (by decide)])]
  rw [select_apply]
  show Scalar.select
      (IntOp.cmpi CmpIPredicate.slt (flatW ei (ix1 e))
        (broadcastInDim S262144 ![] bcast_S_S262144 (constantI S_ 32 0#32) (ix1 e)))
      (IntOp.addi (flatW ei (ix1 e))
        (broadcastInDim S262144 ![] bcast_S_S262144 (constantI S_ 32 16777216#32) (ix1 e)))
      (flatW ei (ix1 e)) = _
  rw [StableHlo.Predicate.bcast_scalar _ (by decide), StableHlo.Predicate.bcast_scalar _ (by decide), flatW_apply]
  exact norm_flat _ _ (hr _) (hr _)

/-- The dense matrix at (s, t): the number of edges from `s` to `t` times `w[s, t]`. -/
theorem denseW_apply (ei : IVec S2x262144 32) (w : FVec Ideal S4096x4096 .f32) (hr : ∀ i, (ei i).toNat < 4096)
    (s t : Fin 4096) :
    (denseW ei w (ix2 s t) : EReal) = Cert.EdgeSums.cnt (srcV ei) (tgtV ei) s t * (w (ix2 s t) : EReal) := by
  have hs := s.isLt
  have ht := t.isLt
  have hp : 4096 * s.val + t.val < 16777216 := by omega
  -- every index word is a position inside the 4096² zeros
  have hin : ∀ e : Fin 262144, (idxW ei (ix2 e (0 : Fin 1))).toNat < 16777216 := by
    intro e
    rw [idxW_apply ei hr e, flat_toNat _ _ (hr _) (hr _)]
    have h0 := hr (ix2 (0 : Fin 2) e)
    have h1 := hr (ix2 (1 : Fin 2) e)
    omega
  unfold denseW
  rw [truncf_apply, mulf_apply]
  refine congrArg (fun z : EReal => z * (w (ix2 s t) : EReal)) ?_
  -- the reshape reads flat position 4096 · s + t
  rw [shapeCast_apply _ _ (ix2 s t) (ix1 (⟨4096 * s.val + t.val, hp⟩ : Fin 16777216))
    (by rw [Shape.rowMajor_val_one, Shape.rowMajor_val_two]; show 4096 * s.val + t.val = s.val * 4096 + t.val; omega)]
  show Ideal.hostScatterAdd scatter_S16777216_S262144x1_S262144_n_0_0_1
      (broadcastInDim S16777216 ![] bcast_S_S16777216 (constant (F := Ideal) S_ .f32 0x00000000#32))
      (idxW ei)
      (broadcastInDim S262144 ![] bcast_S_S262144 (constant (F := Ideal) S_ .f32 0x3F800000#32))
      (ix1 (⟨4096 * s.val + t.val, hp⟩ : Fin 16777216)) = _
  rw [Cert.EdgeIndex.scatter_flat_apply _ _ _ hin ⟨4096 * s.val + t.val, hp⟩]
  rw [StableHlo.Predicate.bcast_scalar _ (by decide), constant_apply, Ideal.ofBits_zero_f32, zero_add]
  unfold Cert.EdgeSums.cnt
  refine Finset.sum_congr (Finset.filter_congr fun e _ => ?_) (fun e _ => ?_)
  · rw [idxW_apply ei hr e, flat_toNat _ _ (hr _) (hr _)]
    exact pos_iff _ _ (hr _) (hr _) s t
  · rw [StableHlo.Predicate.bcast_scalar _ (by decide), constant_apply, ofBits_one_f32]

/-- The dense matrix at (s, t): the number of edges from `s` to `t` times `w[s, t]`, for ids in range. -/
theorem Marr_apply (c : Dev nD) (hr : ∀ i, (eiIn m c i).toNat < 4096) (s t : Fin 4096) :
    (Marr m c (ix2 s t) : EReal)
      = Cert.EdgeSums.cnt (srcV (eiIn m c)) (tgtV (eiIn m c)) s t * (wIn m c (ix2 s t) : EReal) := by
  rw [Marr_eq]
  exact denseW_apply (eiIn m c) (wIn m c) hr s t

/-- The region's first operand is `tanh x`. -/
theorem FXarr_apply (c : Dev nD) (b : Fin 128) (t : Fin 4096) :
    (FXarr m c (ix2 b t) : EReal) = Ideal.tanh (xIn m c (ix2 b t)) := by
  show StableHlo.after hostOps0 (fun b => m (c, b)) (Proc.devRef .tc main_v23) (ix2 b t) = _
  after_results
  rw [truncf_apply]
  show (FloatOps.hostUnary .tanh (xIn m c (ix2 b t)) : Ideal .f32) = _
  rw [Ideal.hostUnary_tanh_def]

/-- The region's second operand is `error`. -/
theorem ERarr_apply (c : Dev nD) (b : Fin 128) (t : Fin 4096) :
    (ERarr m c (ix2 b t) : EReal) = (errIn m c (ix2 b t) : EReal) := by
  show StableHlo.after hostOps0 (fun b => m (c, b)) (Proc.devRef .tc main_v24) (ix2 b t) = _
  after_results
  rw [truncf_apply]

/-- The epilogue's factor is `1 − tanh² x`. -/
theorem DFarr_apply (c : Dev nD) (b : Fin 128) (t : Fin 4096) :
    (DFarr m c (ix2 b t) : EReal)
      = 1 - Ideal.tanh (xIn m c (ix2 b t)) * Ideal.tanh (xIn m c (ix2 b t)) := by
  show StableHlo.after hostOps0 (fun b => m (c, b)) (Proc.devRef .tc main_v22) (ix2 b t) = _
  after_results
  rw [subf_apply, mulf_apply, StableHlo.Predicate.bcast_scalar _ (by decide), constant_apply, ofBits_one_f32]
  show (1 : EReal) - (FloatOps.hostUnary .tanh (xIn m c (ix2 b t)) : Ideal .f32)
        * (FloatOps.hostUnary .tanh (xIn m c (ix2 b t)) : Ideal .f32) = _
  rw [Ideal.hostUnary_tanh_def]

end Cert.KernelIdeal.HostIn

end
-- ==== Proof.KBody.lean ====
/-
  What one run of the kernel body leaves behind, as values.

  The body keeps a running block `acc` [128 × 2048] in a scratch buffer: at the first step of a row of the grid it
  stores zeros, then at every step it adds to `acc` the product of the `fx` block [128 × 1024] with the transposed
  `M` block [2048 × 1024] (contracting the 1024 columns), at the last step of the row it copies `acc` to the `mu`
  block, and at every step it stores the product of the `error` block [128 × 2048] with the `M` block (contracting the
  2048 rows) as the partial aggregate [1 × 128 × 1024]. So, in each of the three control cases, the scratch ends at
  "what it held (or zero) plus the first product", the `mu` block (last step only) at the same, and the partial
  aggregate at the second product. At the ideal instance the two products read, at an index, as plain sums.
-/
import proofs.«427457_j19834158973336_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

/-! ## The three control cases: what the scratch and the two output blocks end holding -/

/-- The rank-2 origin, as the constant function the covering lemmas are stated over. -/
theorem hz2 : (![0, 0] : Fin 2 → Nat) = fun _ => 0 := funext fun a => by fin_cases a <;> rfl
/-- The rank-3 origin likewise. -/
theorem hz3 : (![0, 0, 0] : Fin 3 → Nat) = fun _ => 0 := funext fun a => by fin_cases a <;> rfl

/-- First step of a row (case A): the scratch is reset and then updated: zero plus the first product. -/
theorem sout_A (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : cond0_0 i) (hc1 : ¬cond0_1 i) (x0 : Vec F S2048x1024 .bf16) (x1 : Vec F S128x1024 .bf16) (x2 : Vec F S128x2048 .bf16) :
    sout0_A_0 c i a2 h2 a3 h3 a4 h4 a5 h5 a6 h6 a7 h7 hc0 hc1 x0 x1 x2 = k0_pay3 x0 x1 (k0_pay1 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S128x2048) hz2, View.readCov_unit_zero (S := S128x2048) _ hz2]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

/-- A middle step (case B): what the scratch held plus the first product. -/
theorem sout_B (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : ¬cond0_0 i) (hc1 : ¬cond0_1 i) (x0 : Vec F S2048x1024 .bf16) (x1 : Vec F S128x1024 .bf16) (x2 : Vec F S128x2048 .bf16) (xs0 : Vec F S128x2048 .f32) :
    sout0_B_0 c i a2 h2 a3 h3 a4 h4 a5 h5 a6 h6 a7 h7 hc0 hc1 x0 x1 x2 xs0 = k0_pay3 x0 x1 xs0 := by
  unfold sout0_B_0
  rw [View.read_writes_eq_canon _ _ _ (scover0_B_0 c i a2 h2 a3 h3 a4 h4 a5 h5 a6 h6 a7 h7 hc0 hc1 x0 x1 x2 xs0)]
  unfold kernelRun0_B
  dsimp only
  sl_unfold_words
  rw [View.canon_unit_zero hz2]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

/-- The last step of a row (case C): the same update of the scratch … -/
theorem sout_C (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : ¬cond0_0 i) (hc1 : cond0_1 i) (x0 : Vec F S2048x1024 .bf16) (x1 : Vec F S128x1024 .bf16) (x2 : Vec F S128x2048 .bf16) (xs0 : Vec F S128x2048 .f32) :
    sout0_C_0 c i a2 h2 a3 h3 a4 h4 a5 h5 a6 h6 a7 h7 hc0 hc1 x0 x1 x2 xs0 = k0_pay3 x0 x1 xs0 := by
  unfold sout0_C_0
  rw [View.read_writes_eq_canon _ _ _ (scover0_C_0 c i a2 h2 a3 h3 a4 h4 a5 h5 a6 h6 a7 h7 hc0 hc1 x0 x1 x2 xs0)]
  unfold kernelRun0_C
  dsimp only
  sl_unfold_words
  rw [View.canon_unit_zero hz2]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

/-- … and the `mu` block is the updated scratch, read back. -/
theorem out3_C (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : ¬cond0_0 i) (hc1 : cond0_1 i) (x0 : Vec F S2048x1024 .bf16) (x1 : Vec F S128x1024 .bf16) (x2 : Vec F S128x2048 .bf16) (xs0 : Vec F S128x2048 .f32) :
    out0_C_3 c i a2 h2 a3 h3 a4 h4 a5 h5 a6 h6 a7 h7 hc0 hc1 x0 x1 x2 xs0 = k0_pay3 x0 x1 xs0 := by
  unfold out0_C_3
  rw [View.read_writes_eq_canon _ _ _ (cover0_C_3 c i a2 h2 a3 h3 a4 h4 a5 h5 a6 h6 a7 h7 hc0 hc1 x0 x1 x2 xs0)]
  unfold kernelRun0_C
  dsimp only
  sl_unfold_words
  rw [View.canon_unit_zero hz2]
  rw [View.readCov_unit_zero (S := S128x2048) _ hz2]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

/-- In every case the partial-aggregate block is the second product. -/
theorem out4_A (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : cond0_0 i) (hc1 : ¬cond0_1 i) (x0 : Vec F S2048x1024 .bf16) (x1 : Vec F S128x1024 .bf16) (x2 : Vec F S128x2048 .bf16) :
    out0_A_4 c i a2 h2 a3 h3 a4 h4 a5 h5 a6 h6 a7 h7 hc0 hc1 x0 x1 x2 = k0_pay4 x0 x2 := by
  unfold out0_A_4
  rw [View.read_writes_eq_canon _ _ _ (cover0_A_4 c i a2 h2 a3 h3 a4 h4 a5 h5 a6 h6 a7 h7 hc0 hc1 x0 x1 x2)]
  unfold kernelRun0_A
  dsimp only
  sl_unfold_words
  rw [View.canon_unit_zero hz3]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

theorem out4_B (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : ¬cond0_0 i) (hc1 : ¬cond0_1 i) (x0 : Vec F S2048x1024 .bf16) (x1 : Vec F S128x1024 .bf16) (x2 : Vec F S128x2048 .bf16) (xs0 : Vec F S128x2048 .f32) :
    out0_B_4 c i a2 h2 a3 h3 a4 h4 a5 h5 a6 h6 a7 h7 hc0 hc1 x0 x1 x2 xs0 = k0_pay4 x0 x2 := by
  unfold out0_B_4
  rw [View.read_writes_eq_canon _ _ _ (cover0_B_4 c i a2 h2 a3 h3 a4 h4 a5 h5 a6 h6 a7 h7 hc0 hc1 x0 x1 x2 xs0)]
  unfold kernelRun0_B
  dsimp only
  sl_unfold_words
  rw [View.canon_unit_zero hz3]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

theorem out4_C (c : Dev nD) (i : grid0.Coords) (a2 : Memref sig .tc .vmem S2048x1024 .bf16) (h2 : a2.IsWhole) (a3 : Memref sig .tc .vmem S128x1024 .bf16) (h3 : a3.IsWhole) (a4 : Memref sig .tc .vmem S128x2048 .bf16) (h4 : a4.IsWhole) (a5 : Memref sig .tc .vmem S128x2048 .f32) (h5 : a5.IsWhole) (a6 : Memref sig .tc .vmem S1x128x1024 .f32) (h6 : a6.IsWhole) (a7 : Memref sig .tc .vmem S128x2048 .f32) (h7 : a7.IsWhole) (hc0 : ¬cond0_0 i) (hc1 : cond0_1 i) (x0 : Vec F S2048x1024 .bf16) (x1 : Vec F S128x1024 .bf16) (x2 : Vec F S128x2048 .bf16) (xs0 : Vec F S128x2048 .f32) :
    out0_C_4 c i a2 h2 a3 h3 a4 h4 a5 h5 a6 h6 a7 h7 hc0 hc1 x0 x1 x2 xs0 = k0_pay4 x0 x2 := by
  unfold out0_C_4
  rw [View.read_writes_eq_canon _ _ _ (cover0_C_4 c i a2 h2 a3 h3 a4 h4 a5 h5 a6 h6 a7 h7 hc0 hc1 x0 x1 x2 xs0)]
  unfold kernelRun0_C
  dsimp only
  sl_unfold_words
  rw [View.canon_unit_zero hz3]
  simp only [View.readAt_eq_ld, h2.read_unread, h3.read_unread, h4.read_unread, h5.read_unread, h6.read_unread, h7.read_unread, View.ld_unit_zero (S := S128x2048) hz2, View.ld_unit_zero (S := S2048x1024) hz2, View.ld_unit_zero (S := S128x1024) hz2, View.ld_unit_zero (S := S1x128x1024) hz3]

/-! ## The payloads at an index, at the ideal instance -/

/-! ### The first product's dimension numbers: contract axis 1 of both operands

For the record `dot_S128x1024_S2048x1024_S128x2048_1_1_0_0_n_n` (a [128 × 1024] block times the transpose of a [2048 × 1024]
block) the left operand's index at output index `j` and contraction position `k` is `(j 0, k)` and the right operand's
is `(j 1, k)`. One fact per operand and axis. -/

theorem dotA_lhs0 (j : S128x2048.Idx) (k : dot_S128x1024_S2048x1024_S128x2048_1_1_0_0_n_n.contr.Idx) :
    (dot_S128x1024_S2048x1024_S128x2048_1_1_0_0_n_n.lhsIdx j k 0).val = (j 0).val := by
  unfold DotDims.lhsIdx
  rw [dif_neg (show ¬(0 : Fin S128x1024.rank) ∈ dot_S128x1024_S2048x1024_S128x2048_1_1_0_0_n_n.lhsBatch by decide),
    dif_pos (show (0 : Fin S128x1024.rank) ∈ dot_S128x1024_S2048x1024_S128x2048_1_1_0_0_n_n.lhsNonContracting by decide)]
  rfl

theorem dotA_lhs1 (j : S128x2048.Idx) (k : dot_S128x1024_S2048x1024_S128x2048_1_1_0_0_n_n.contr.Idx) :
    (dot_S128x1024_S2048x1024_S128x2048_1_1_0_0_n_n.lhsIdx j k 1).val = (k ⟨0, by decide⟩).val :=
  dot_S128x1024_S2048x1024_S128x2048_1_1_0_0_n_n.lhsIdx_val_of_single (cl := 1) rfl j k

theorem dotA_rhs0 (j : S128x2048.Idx) (k : dot_S128x1024_S2048x1024_S128x2048_1_1_0_0_n_n.contr.Idx) :
    (dot_S128x1024_S2048x1024_S128x2048_1_1_0_0_n_n.rhsIdx j k 0).val = (j 1).val := by
  unfold DotDims.rhsIdx
  rw [dif_neg (show ¬(0 : Fin S2048x1024.rank) ∈ dot_S128x1024_S2048x1024_S128x2048_1_1_0_0_n_n.rhsBatch by decide),
    dif_pos (show (0 : Fin S2048x1024.rank) ∈ dot_S128x1024_S2048x1024_S128x2048_1_1_0_0_n_n.rhsNonContracting by decide)]
  rfl

theorem dotA_rhs1 (j : S128x2048.Idx) (k : dot_S128x1024_S2048x1024_S128x2048_1_1_0_0_n_n.contr.Idx) :
    (dot_S128x1024_S2048x1024_S128x2048_1_1_0_0_n_n.rhsIdx j k 1).val = (k ⟨0, by decide⟩).val :=
  dot_S128x1024_S2048x1024_S128x2048_1_1_0_0_n_n.rhsIdx_val_of_single (cr := 1) rfl j k

/-- The left operand's index of the first product, with the contraction position named by its one coordinate. -/
theorem dotA_lhsIdx (b : Fin 128) (s : Fin 2048) (k : Fin 1024) :
    dot_S128x1024_S2048x1024_S128x2048_1_1_0_0_n_n.lhsIdx (ix2 b s) ((contrEquiv1 dot_S128x1024_S2048x1024_S128x2048_1_1_0_0_n_n 1024 rfl rfl).symm k) = ix2 b k := by
  funext a
  match a with
  | ⟨0, _⟩ => exact Fin.ext (dotA_lhs0 _ _)
  | ⟨1, _⟩ => exact Fin.ext ((dotA_lhs1 _ _).trans (contrEquiv1_symm_val dot_S128x1024_S2048x1024_S128x2048_1_1_0_0_n_n 1024 rfl rfl k))

/-- The right operand's likewise: row `s` of the [2048 × 1024] block. -/
theorem dotA_rhsIdx (b : Fin 128) (s : Fin 2048) (k : Fin 1024) :
    dot_S128x1024_S2048x1024_S128x2048_1_1_0_0_n_n.rhsIdx (ix2 b s) ((contrEquiv1 dot_S128x1024_S2048x1024_S128x2048_1_1_0_0_n_n 1024 rfl rfl).symm k) = ix2 s k := by
  funext a
  match a with
  | ⟨0, _⟩ => exact Fin.ext (dotA_rhs0 _ _)
  | ⟨1, _⟩ => exact Fin.ext ((dotA_rhs1 _ _).trans (contrEquiv1_symm_val dot_S128x1024_S2048x1024_S128x2048_1_1_0_0_n_n 1024 rfl rfl k))

/-- The first product into the zero block, at (b, s): the sum over the 1024 columns. -/
theorem mmA_apply (l : FVec Ideal S128x1024 .bf16) (r : FVec Ideal S2048x1024 .bf16) (b : Fin 128) (s : Fin 2048) :
    matmul (F := Ideal) dot_S128x1024_S2048x1024_S128x2048_1_1_0_0_n_n none l r (constant (F := Ideal) S128x2048 .f32 0x00000000#32) (ix2 b s)
      = ∑ k : Fin 1024, l (ix2 b k) * r (ix2 s k) := by
  refine (Ideal.matmul_constant_zero_apply dot_S128x1024_S2048x1024_S128x2048_1_1_0_0_n_n none l r (ix2 b s)).trans ?_
  refine (Equiv.sum_comp (contrEquiv1 dot_S128x1024_S2048x1024_S128x2048_1_1_0_0_n_n 1024 rfl rfl).symm _).symm.trans ?_
  refine Finset.sum_congr rfl fun k _ => ?_
  show l (dot_S128x1024_S2048x1024_S128x2048_1_1_0_0_n_n.lhsIdx (ix2 b s) ((contrEquiv1 dot_S128x1024_S2048x1024_S128x2048_1_1_0_0_n_n 1024 rfl rfl).symm k))
      * r (dot_S128x1024_S2048x1024_S128x2048_1_1_0_0_n_n.rhsIdx (ix2 b s) ((contrEquiv1 dot_S128x1024_S2048x1024_S128x2048_1_1_0_0_n_n 1024 rfl rfl).symm k)) = _
  rw [dotA_lhsIdx b s k, dotA_rhsIdx b s k]

/-! ### The second product's dimension numbers: contract axis 1 of the left operand with axis 0 of the right

For the record `dot_S128x2048_S2048x1024_S128x1024_1_0_0_1_n_n` (a [128 × 2048] block times a [2048 × 1024] block) the left
operand's index is `(j 0, k)` and the right operand's is `(k, j 1)`. -/

theorem dotB_lhs0 (j : S128x1024.Idx) (k : dot_S128x2048_S2048x1024_S128x1024_1_0_0_1_n_n.contr.Idx) :
    (dot_S128x2048_S2048x1024_S128x1024_1_0_0_1_n_n.lhsIdx j k 0).val = (j 0).val := by
  unfold DotDims.lhsIdx
  rw [dif_neg (show ¬(0 : Fin S128x2048.rank) ∈ dot_S128x2048_S2048x1024_S128x1024_1_0_0_1_n_n.lhsBatch by decide),
    dif_pos (show (0 : Fin S128x2048.rank) ∈ dot_S128x2048_S2048x1024_S128x1024_1_0_0_1_n_n.lhsNonContracting by decide)]
  rfl

theorem dotB_lhs1 (j : S128x1024.Idx) (k : dot_S128x2048_S2048x1024_S128x1024_1_0_0_1_n_n.contr.Idx) :
    (dot_S128x2048_S2048x1024_S128x1024_1_0_0_1_n_n.lhsIdx j k 1).val = (k ⟨0, by decide⟩).val :=
  dot_S128x2048_S2048x1024_S128x1024_1_0_0_1_n_n.lhsIdx_val_of_single (cl := 1) rfl j k

theorem dotB_rhs0 (j : S128x1024.Idx) (k : dot_S128x2048_S2048x1024_S128x1024_1_0_0_1_n_n.contr.Idx) :
    (dot_S128x2048_S2048x1024_S128x1024_1_0_0_1_n_n.rhsIdx j k 0).val = (k ⟨0, by decide⟩).val :=
  dot_S128x2048_S2048x1024_S128x1024_1_0_0_1_n_n.rhsIdx_val_of_single (cr := 0) rfl j k

theorem dotB_rhs1 (j : S128x1024.Idx) (k : dot_S128x2048_S2048x1024_S128x1024_1_0_0_1_n_n.contr.Idx) :
    (dot_S128x2048_S2048x1024_S128x1024_1_0_0_1_n_n.rhsIdx j k 1).val = (j 1).val := by
  unfold DotDims.rhsIdx
  rw [dif_neg (show ¬(1 : Fin S2048x1024.rank) ∈ dot_S128x2048_S2048x1024_S128x1024_1_0_0_1_n_n.rhsBatch by decide),
    dif_pos (show (1 : Fin S2048x1024.rank) ∈ dot_S128x2048_S2048x1024_S128x1024_1_0_0_1_n_n.rhsNonContracting by decide)]
  rfl

theorem dotB_lhsIdx (b : Fin 128) (t : Fin 1024) (k : Fin 2048) :
    dot_S128x2048_S2048x1024_S128x1024_1_0_0_1_n_n.lhsIdx (ix2 b t) ((contrEquiv1 dot_S128x2048_S2048x1024_S128x1024_1_0_0_1_n_n 2048 rfl rfl).symm k) = ix2 b k := by
  funext a
  match a with
  | ⟨0, _⟩ => exact Fin.ext (dotB_lhs0 _ _)
  | ⟨1, _⟩ => exact Fin.ext ((dotB_lhs1 _ _).trans (contrEquiv1_symm_val dot_S128x2048_S2048x1024_S128x1024_1_0_0_1_n_n 2048 rfl rfl k))

theorem dotB_rhsIdx (b : Fin 128) (t : Fin 1024) (k : Fin 2048) :
    dot_S128x2048_S2048x1024_S128x1024_1_0_0_1_n_n.rhsIdx (ix2 b t) ((contrEquiv1 dot_S128x2048_S2048x1024_S128x1024_1_0_0_1_n_n 2048 rfl rfl).symm k) = ix2 k t := by
  funext a
  match a with
  | ⟨0, _⟩ => exact Fin.ext ((dotB_rhs0 _ _).trans (contrEquiv1_symm_val dot_S128x2048_S2048x1024_S128x1024_1_0_0_1_n_n 2048 rfl rfl k))
  | ⟨1, _⟩ => exact Fin.ext (dotB_rhs1 _ _)

/-- The second product into the zero block, at (b, t): the sum over the 2048 rows. -/
theorem mmB_apply (l : FVec Ideal S128x2048 .bf16) (r : FVec Ideal S2048x1024 .bf16) (b : Fin 128) (t : Fin 1024) :
    matmul (F := Ideal) dot_S128x2048_S2048x1024_S128x1024_1_0_0_1_n_n none l r (constant (F := Ideal) S128x1024 .f32 0x00000000#32) (ix2 b t)
      = ∑ k : Fin 2048, l (ix2 b k) * r (ix2 k t) := by
  refine (Ideal.matmul_constant_zero_apply dot_S128x2048_S2048x1024_S128x1024_1_0_0_1_n_n none l r (ix2 b t)).trans ?_
  refine (Equiv.sum_comp (contrEquiv1 dot_S128x2048_S2048x1024_S128x1024_1_0_0_1_n_n 2048 rfl rfl).symm _).symm.trans ?_
  refine Finset.sum_congr rfl fun k _ => ?_
  show l (dot_S128x2048_S2048x1024_S128x1024_1_0_0_1_n_n.lhsIdx (ix2 b t) ((contrEquiv1 dot_S128x2048_S2048x1024_S128x1024_1_0_0_1_n_n 2048 rfl rfl).symm k))
      * r (dot_S128x2048_S2048x1024_S128x1024_1_0_0_1_n_n.rhsIdx (ix2 b t) ((contrEquiv1 dot_S128x2048_S2048x1024_S128x1024_1_0_0_1_n_n 2048 rfl rfl).symm k)) = _
  rw [dotB_lhsIdx b t k, dotB_rhsIdx b t k]

/-! ### The three payloads -/

/-- The reset block is zero everywhere. -/
theorem pay1_apply (j : S128x2048.Idx) : k0_pay1 (F := Ideal) j = 0 := by
  unfold k0_pay1
  rw [shapeCast_self]
  exact Ideal.ofBits_zero_f32

/-- The scratch update at (b, s): the old entry plus `∑ₖ fx[b, k] · M[s, k]` over the 1024 columns of the blocks. -/
theorem pay3_apply (x0 : Vec Ideal S2048x1024 .bf16) (x1 : Vec Ideal S128x1024 .bf16) (a : Vec Ideal S128x2048 .f32)
    (b : Fin 128) (s : Fin 2048) :
    k0_pay3 (F := Ideal) x0 x1 a (ix2 b s) = a (ix2 b s) + ∑ k : Fin 1024, x1 (ix2 b k) * x0 (ix2 s k) := by
  unfold k0_pay3 k0_pay2
  simp only [shapeCast_self]
  refine (addf_apply _ _ _).trans ?_
  exact congrArg (a (ix2 b s) + ·) (mmA_apply x1 x0 b s)

/-- The partial aggregate at (0, b, t): `∑ₖ error[b, k] · M[k, t]` over the 2048 rows of the blocks. -/
theorem pay4_apply (x0 : Vec Ideal S2048x1024 .bf16) (x2 : Vec Ideal S128x2048 .bf16) (b : Fin 128) (t : Fin 1024) :
    k0_pay4 (F := Ideal) x0 x2 (ix3 (0 : Fin 1) b t) = ∑ k : Fin 2048, x2 (ix2 b k) * x0 (ix2 k t) := by
  unfold k0_pay4 k0_pay2
  refine (shapeCast_ab_1ab_apply _ _ (0 : Fin 1) b t).trans ?_
  simp only [shapeCast_self]
  exact mmB_apply x2 x0 b t

end Cert.KernelIdeal.Body

end
-- ==== Proof.KAccum.lean ====
/-
  What the region leaves in its two result arrays.

  The grid is 2 × 4: point t = 4·i + j works on row-block `i` (2048 rows of `M`) and column-block `j` (1024 columns).
  Along a row of the grid the scratch block runs through zero plus the four products `fx[:, block j] · M[block i, block j]ᵀ`
  in order, and at j = 3 it is written to columns `block i` of `mu`; so `mu[b, s]` ends at the ordered sum, over the four
  column blocks, of `∑ₖ fx[b, col j k] · M[s, col j k]`. Every point writes its partial aggregate
  `error[:, block i] · M[block i, block j]` to slot `i`, columns `block j` of the second result, which therefore ends at
  `∑ₖ error[b, row i k] · M[row i k, t]` at (i, b, t).
-/
import proofs.«427457_j19834158973336_3_alg».proof.Proof.KArrays
import proofs.«427457_j19834158973336_3_alg».proof.Proof.KBody
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx Finset
open Idealize.ShloMosaic.Pipeline (Dat)

namespace Cert.KernelIdeal.Accum

open Cert.KernelIdeal Cert.KernelIdeal.Gen Cert.KernelIdeal.Arrays

variable (m : (ℓ : Loc nD τ sig) → Buf (Elt Ideal) ℓ)

/-- The blocks the body reads at point `t`: of the matrix, of `fx`, of the error copy. -/
abbrev Mblk (c : Dev nD) (t : Fin cfg0.N) : Vec Ideal S2048x1024 .bf16 := iblk m c 0 t
abbrev FXblk (c : Dev nD) (t : Fin cfg0.N) : Vec Ideal S128x1024 .bf16 := iblk m c 1 t
abbrev ERblk (c : Dev nD) (t : Fin cfg0.N) : Vec Ideal S128x2048 .bf16 := iblk m c 2 t

/-- The scratch block after point `n`. -/
abbrev scr (c : Dev nD) (n : ℕ) (h : n < cfg0.N) : Vec Ideal S128x2048 .f32 := (outsAt0 m c n h).2.2

theorem scr_reset (c : Dev nD) (n : ℕ) (h : n < cfg0.N) (h0 : n % 4 = 0) :
    scr m c n h = k0_pay3 (Mblk m c ⟨n, h⟩) (FXblk m c ⟨n, h⟩) (k0_pay1 (F := Ideal)) := by
  have h1 : ¬n % 4 = 3 := by omega
  show (outsAt0 m c n h).2.2 = _
  rw [outsAt0_A m c ⟨n, h⟩ h0 h1]
  dsimp only
  exact Body.sout_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩) (iblk m c 2 ⟨n, h⟩)

theorem scr_step (c : Dev nD) (n : ℕ) (h : n < cfg0.N) (h0 : ¬n % 4 = 0) :
    scr m c n h = k0_pay3 (Mblk m c ⟨n, h⟩) (FXblk m c ⟨n, h⟩) (scr m c (n - 1) (Nat.lt_of_le_of_lt (Nat.sub_le _ _) h)) := by
  show (outsAt0 m c n h).2.2 = _
  by_cases h1 : n % 4 = 3
  · rw [outsAt0_C m c ⟨n, h⟩ h0 h1]
    dsimp only
    exact Body.sout_C (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
      (fun hh => h0 ((hcond0_0 ⟨n, h⟩).mp hh)) ((hcond0_1 ⟨n, h⟩).mpr h1) (iblk m c 0 ⟨n, h⟩) (iblk m c 1 ⟨n, h⟩) (iblk m c 2 ⟨n, h⟩)
      (outsAt0 m c (n - 1) (Nat.lt_of_le_of_lt (Nat.sub_le _ _) h)).2.2
  · rw [outsAt0_B m c ⟨n, h⟩ h0 h1]
    dsimp only
    exact Body.sout_B (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
      (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩)
      (outsAt0 m c (n - 1) (Nat.lt_of_le_of_lt (Nat.sub_le _ _) h)).2.2

/-- At the last point of a grid row the `mu` block is written with the scratch's new contents. -/
theorem mu_last (c : Dev nD) (t : Fin cfg0.N) (h1 : t.val % 4 = 3) :
    (outsAt0 m c t.val t.isLt).1
      = k0_pay3 (Mblk m c t) (FXblk m c t) (scr m c (t.val - 1) (Nat.lt_of_le_of_lt (Nat.sub_le _ _) t.isLt)) := by
  have h0 : ¬t.val % 4 = 0 := by omega
  rw [outsAt0_C m c t h0 h1]
  dsimp only
  exact Body.out3_C (F := Ideal) c (grid0.coords t) (ms0_0 t) (hs0_0 t) (ms0_1 t) (hs0_1 t)
    (ms0_2 t) (hs0_2 t) (ms0_3 t) (hs0_3 t) (ms0_4 t) (hs0_4 t) scM0_0 (Memref.isWhole_whole _)
    (fun hh => h0 ((hcond0_0 t).mp hh)) ((hcond0_1 t).mpr h1) (iblk m c 0 t) (iblk m c 1 t) (iblk m c 2 t)
    (outsAt0 m c (t.val - 1) (Nat.lt_of_le_of_lt (Nat.sub_le _ _) t.isLt)).2.2

/-- At every point the partial-aggregate block is the product of the error block and the matrix block. -/
theorem ag_at (c : Dev nD) (t : Fin cfg0.N) :
    (outsAt0 m c t.val t.isLt).2.1 = k0_pay4 (Mblk m c t) (ERblk m c t) := by
  by_cases h0 : t.val % 4 = 0
  · have h1 : ¬t.val % 4 = 3 := by omega
    rw [outsAt0_A m c t h0 h1]
    dsimp only
    exact Body.out4_A (F := Ideal) c (grid0.coords t) (ms0_0 t) (hs0_0 t) (ms0_1 t) (hs0_1 t)
      (ms0_2 t) (hs0_2 t) (ms0_3 t) (hs0_3 t) (ms0_4 t) (hs0_4 t) scM0_0 (Memref.isWhole_whole _)
      ((hcond0_0 t).mpr h0) (fun hh => h1 ((hcond0_1 t).mp hh)) (iblk m c 0 t) (iblk m c 1 t) (iblk m c 2 t)
  · by_cases h1 : t.val % 4 = 3
    · rw [outsAt0_C m c t h0 h1]
      dsimp only
      exact Body.out4_C (F := Ideal) c (grid0.coords t) (ms0_0 t) (hs0_0 t) (ms0_1 t) (hs0_1 t)
        (ms0_2 t) (hs0_2 t) (ms0_3 t) (hs0_3 t) (ms0_4 t) (hs0_4 t) scM0_0 (Memref.isWhole_whole _)
        (fun hh => h0 ((hcond0_0 t).mp hh)) ((hcond0_1 t).mpr h1) (iblk m c 0 t) (iblk m c 1 t) (iblk m c 2 t)
        (outsAt0 m c (t.val - 1) (Nat.lt_of_le_of_lt (Nat.sub_le _ _) t.isLt)).2.2
    · rw [outsAt0_B m c t h0 h1]
      dsimp only
      exact Body.out4_B (F := Ideal) c (grid0.coords t) (ms0_0 t) (hs0_0 t) (ms0_1 t) (hs0_1 t)
        (ms0_2 t) (hs0_2 t) (ms0_3 t) (hs0_3 t) (ms0_4 t) (hs0_4 t) scM0_0 (Memref.isWhole_whole _)
        (fun hh => h0 ((hcond0_0 t).mp hh)) (fun hh => h1 ((hcond0_1 t).mp hh)) (iblk m c 0 t) (iblk m c 1 t) (iblk m c 2 t)
        (outsAt0 m c (t.val - 1) (Nat.lt_of_le_of_lt (Nat.sub_le _ _) t.isLt)).2.2

/-- The windows' block indices at point `t` = 4·i + j, decided over the eight points. -/
theorem index0 : ∀ t : Fin grid0.N, win0_0.index t (0 : Fin 2) = t.val / 4 ∧ win0_0.index t (1 : Fin 2) = t.val % 4 := by
  decide +kernel
theorem index1 : ∀ t : Fin grid0.N, win0_1.index t (0 : Fin 2) = 0 ∧ win0_1.index t (1 : Fin 2) = t.val % 4 := by
  decide +kernel
theorem index2 : ∀ t : Fin grid0.N, win0_2.index t (0 : Fin 2) = 0 ∧ win0_2.index t (1 : Fin 2) = t.val / 4 := by
  decide +kernel
theorem index3 : ∀ t : Fin grid0.N, win0_3.index t (0 : Fin 2) = 0 ∧ win0_3.index t (1 : Fin 2) = t.val / 4 := by
  decide +kernel
theorem index4 : ∀ t : Fin grid0.N, win0_4.index t (0 : Fin 3) = t.val / 4 ∧ win0_4.index t (1 : Fin 3) = 0
    ∧ win0_4.index t (2 : Fin 3) = t.val % 4 := by
  decide +kernel

/-- A block of a [4096 × 4096] array read through window 0 at point 4·i + j: rows `row i ·`, columns `col j ·`. -/
theorem read0 (t : Fin cfg0.N) (i : Fin 2) (j : Fin 4) (hi : t.val / 4 = i.val) (hj : t.val % 4 = j.val)
    (A : FVec Ideal S4096x4096 .bf16) (p : Fin 2048) (q : Fin 1024) :
    ((cfg0.win 0).blk t).view.read (Elt Ideal) A (ix2 p q) = A (ix2 (row i p) (col j q)) := by
  rw [View.read_apply]
  show A _ = A _
  congr 1
  funext a
  apply Fin.ext
  match a with
  | ⟨0, _⟩ =>
    show win0_0.index t 0 * 2048 + 1 * p.val = 2048 * i.val + p.val
    rw [(index0 t).1, hi]; omega
  | ⟨1, _⟩ =>
    show win0_0.index t 1 * 1024 + 1 * q.val = 1024 * j.val + q.val
    rw [(index0 t).2, hj]; omega

/-- A block of a [128 × 4096] array read through window 1 at point 4·i + j: columns `col j ·`. -/
theorem read1 (t : Fin cfg0.N) (j : Fin 4) (hj : t.val % 4 = j.val)
    (A : FVec Ideal S128x4096 .bf16) (b : Fin 128) (q : Fin 1024) :
    ((cfg0.win 1).blk t).view.read (Elt Ideal) A (ix2 b q) = A (ix2 b (col j q)) := by
  rw [View.read_apply]
  show A _ = A _
  congr 1
  funext a
  apply Fin.ext
  match a with
  | ⟨0, _⟩ =>
    show win0_1.index t 0 * 128 + 1 * b.val = b.val
    rw [(index1 t).1]; omega
  | ⟨1, _⟩ =>
    show win0_1.index t 1 * 1024 + 1 * q.val = 1024 * j.val + q.val
    rw [(index1 t).2, hj]; omega

/-- A block of a [128 × 4096] array read through window 2 at point 4·i + j: columns `row i ·`. -/
theorem read2 (t : Fin cfg0.N) (i : Fin 2) (hi : t.val / 4 = i.val)
    (A : FVec Ideal S128x4096 .bf16) (b : Fin 128) (p : Fin 2048) :
    ((cfg0.win 2).blk t).view.read (Elt Ideal) A (ix2 b p) = A (ix2 b (row i p)) := by
  rw [View.read_apply]
  show A _ = A _
  congr 1
  funext a
  apply Fin.ext
  match a with
  | ⟨0, _⟩ =>
    show win0_2.index t 0 * 128 + 1 * b.val = b.val
    rw [(index2 t).1]; omega
  | ⟨1, _⟩ =>
    show win0_2.index t 1 * 2048 + 1 * p.val = 2048 * i.val + p.val
    rw [(index2 t).2, hi]; omega

/-- The matrix block at point 4·i + j is rows `row i ·`, columns `col j ·` of the matrix. -/
theorem Mblk_apply (c : Dev nD) (t : Fin cfg0.N) (i : Fin 2) (j : Fin 4) (hi : t.val / 4 = i.val) (hj : t.val % 4 = j.val)
    (p : Fin 2048) (q : Fin 1024) : Mblk m c t (ix2 p q) = Marr m c (ix2 (row i p) (col j q)) :=
  read0 t i j hi hj (Marr m c) p q

/-- The `fx` block at point 4·i + j is columns `col j ·` of `fx`. -/
theorem FXblk_apply (c : Dev nD) (t : Fin cfg0.N) (j : Fin 4) (hj : t.val % 4 = j.val)
    (b : Fin 128) (q : Fin 1024) : FXblk m c t (ix2 b q) = FXarr m c (ix2 b (col j q)) :=
  read1 t j hj (FXarr m c) b q

/-- The error block at point 4·i + j is columns `row i ·` of the error copy. -/
theorem ERblk_apply (c : Dev nD) (t : Fin cfg0.N) (i : Fin 2) (hi : t.val / 4 = i.val)
    (b : Fin 128) (p : Fin 2048) : ERblk m c t (ix2 b p) = ERarr m c (ix2 b (row i p)) :=
  read2 t i hi (ERarr m c) b p

/-- The scratch at (b, s') after a point that resets it: zero plus that point's product. -/
theorem scr_reset_apply (c : Dev nD) (n : ℕ) (h : n < cfg0.N) (h0 : n % 4 = 0) (b : Fin 128) (s' : Fin 2048) :
    scr m c n h (ix2 b s')
      = 0 + ∑ k : Fin 1024, FXblk m c ⟨n, h⟩ (ix2 b k) * Mblk m c ⟨n, h⟩ (ix2 s' k) := by
  rw [scr_reset m c n h h0, Body.pay3_apply, Body.pay1_apply]

/-- The scratch at (b, s') after any other point: what the point before left plus this point's product. -/
theorem scr_step_apply (c : Dev nD) (n : ℕ) (h : n < cfg0.N) (h0 : ¬n % 4 = 0) (b : Fin 128) (s' : Fin 2048) :
    scr m c n h (ix2 b s')
      = scr m c (n - 1) (Nat.lt_of_le_of_lt (Nat.sub_le _ _) h) (ix2 b s')
        + ∑ k : Fin 1024, FXblk m c ⟨n, h⟩ (ix2 b k) * Mblk m c ⟨n, h⟩ (ix2 s' k) := by
  rw [scr_step m c n h h0, Body.pay3_apply]

/-- One point's product at (b, s'), over the arrays: point 4·i + j multiplies columns `col j ·`. -/
theorem prod_eq (c : Dev nD) (u : Fin cfg0.N) (i : Fin 2) (j : Fin 4) (hi : u.val / 4 = i.val) (hj : u.val % 4 = j.val)
    (b : Fin 128) (s' : Fin 2048) :
    (∑ k : Fin 1024, FXblk m c u (ix2 b k) * Mblk m c u (ix2 s' k))
      = ∑ k : Fin 1024, (FXarr m c (ix2 b (col j k)) : EReal) * (Marr m c (ix2 (row i s') (col j k)) : EReal) :=
  Finset.sum_congr rfl fun k _ => by rw [FXblk_apply m c u j hj, Mblk_apply m c u i j hi hj]

/-- The `mu` array the region leaves, as a function of the arrays it finds. -/
def G3 (c : Dev nD) : FVec Ideal S128x4096 .f32 := fun y =>
  ((((0 : EReal) + ∑ k : Fin 1024, (FXarr m c (ix2 (y 0 : Fin 128) (col 0 k)) : EReal) * (Marr m c (ix2 (y 1 : Fin 4096) (col 0 k)) : EReal))
        + ∑ k : Fin 1024, (FXarr m c (ix2 (y 0 : Fin 128) (col 1 k)) : EReal) * (Marr m c (ix2 (y 1 : Fin 4096) (col 1 k)) : EReal))
      + ∑ k : Fin 1024, (FXarr m c (ix2 (y 0 : Fin 128) (col 2 k)) : EReal) * (Marr m c (ix2 (y 1 : Fin 4096) (col 2 k)) : EReal))
    + ∑ k : Fin 1024, (FXarr m c (ix2 (y 0 : Fin 128) (col 3 k)) : EReal) * (Marr m c (ix2 (y 1 : Fin 4096) (col 3 k)) : EReal)

/-- The `mu` block written at the last point of grid row `i`, at (b, s'): the four products of the row added in order
    onto zero, which is the function above at (b, row i s'). -/
theorem mu_row (c : Dev nD) (t : Fin cfg0.N) (h1 : t.val % 4 = 3) (i : Fin 2) (hi : t.val / 4 = i.val)
    (b : Fin 128) (s' : Fin 2048) :
    (outsAt0 m c t.val t.isLt).1 (ix2 b s') = G3 m c (ix2 b (row i s')) := by
  have hN : t.val < 8 := lt_of_lt_of_eq t.isLt N_0
  rw [mu_last m c t h1, Body.pay3_apply,
    scr_step_apply m c (t.val - 1) _ (by omega), scr_step_apply m c (t.val - 1 - 1) _ (by omega),
    scr_reset_apply m c (t.val - 1 - 1 - 1) _ (by omega)]
  rw [prod_eq m c t i 3 hi h1,
    prod_eq m c ⟨t.val - 1, _⟩ i 2 (by show (t.val - 1) / 4 = i.val; omega) (by show (t.val - 1) % 4 = 2; omega),
    prod_eq m c ⟨t.val - 1 - 1, _⟩ i 1 (by show (t.val - 1 - 1) / 4 = i.val; omega) (by show (t.val - 1 - 1) % 4 = 1; omega),
    prod_eq m c ⟨t.val - 1 - 1 - 1, _⟩ i 0 (by show (t.val - 1 - 1 - 1) / 4 = i.val; omega) (by show (t.val - 1 - 1 - 1) % 4 = 0; omega)]
  rfl

/-- What the last point of a grid row writes back is its block of that function. -/
theorem flushed3 (c : Dev nD) (t : Fin cfg0.N) (hf : (cfg0.win 3).flush t = true) :
    (dats m 0 c).flushed 3 t = ((cfg0.win 3).blk t).view.read (Elt Ideal) (G3 m c) := by
  have h1 : t.val % 4 = 3 := (flush0_3 t).mp hf
  have hN : t.val < 8 := lt_of_lt_of_eq t.isLt N_0
  show (cfg0.win 3).cut (grid0.coords t) ((dats m 0 c).after 3 t) = _
  rw [after0_3]
  funext y
  obtain ⟨b, s', rfl⟩ : ∃ (b : Fin 128) (s' : Fin 2048), y = ix2 b s' := ⟨y 0, y 1, eq_ix2 y⟩
  rw [View.read_apply]
  have he : ((cfg0.win 3).blk t).view.emb (ix2 b s') = ix2 b (row ⟨t.val / 4, by omega⟩ s') := by
    funext a
    apply Fin.ext
    match a with
    | ⟨0, _⟩ =>
      show win0_3.index t 0 * 128 + 1 * b.val = b.val
      rw [(index3 t).1]; omega
    | ⟨1, _⟩ =>
      show win0_3.index t 1 * 2048 + 1 * s'.val = 2048 * (t.val / 4) + s'.val
      rw [(index3 t).2]; omega
  show (outsAt0 m c t.val t.isLt).1 (ix2 b s') = G3 m c (((cfg0.win 3).blk t).view.emb (ix2 b s'))
  rw [he]
  exact mu_row m c t h1 ⟨t.val / 4, by omega⟩ rfl b s'

/-- Every (b, s) lies in the block the last point of grid row s / 2048 writes back. -/
theorem cover3 (c : Dev nD) (y : ((cfg0.win 3).arr.view.loc (c.tc : Thread nD τ)).2.ty.Idx) :
    ∃ t : Fin cfg0.N, (cfg0.win 3).flush t = true ∧ y ∈ ((cfg0.win 3).blk t).view.set := by
  have h0 : (y 0 : Nat) < 128 := (y 0).isLt
  have h1 : (y 1 : Nat) < 4096 := (y 1).isLt
  have hlt : 4 * ((y 1 : Nat) / 2048) + 3 < cfg0.N := by rw [show cfg0.N = 8 from N_0]; omega
  refine ⟨⟨4 * ((y 1 : Nat) / 2048) + 3, hlt⟩, (flush0_3 _).mpr (by show (4 * ((y 1 : Nat) / 2048) + 3) % 4 = 3; omega), ?_⟩
  show y ∈ ((View.whole main_v25_0).slice (win0_3.rect ⟨4 * ((y 1 : Nat) / 2048) + 3, hlt⟩)).set
  rw [View.set_slice_whole, Rect.mem_set_unit]
  intro a
  match a with
  | ⟨0, _⟩ =>
    show win0_3.index ⟨4 * ((y 1 : Nat) / 2048) + 3, hlt⟩ 0 * 128 ≤ (y 0 : Nat)
      ∧ (y 0 : Nat) < win0_3.index ⟨4 * ((y 1 : Nat) / 2048) + 3, hlt⟩ 0 * 128 + 128
    rw [(index3 _).1]; omega
  | ⟨1, _⟩ =>
    show win0_3.index ⟨4 * ((y 1 : Nat) / 2048) + 3, hlt⟩ 1 * 2048 ≤ (y 1 : Nat)
      ∧ (y 1 : Nat) < win0_3.index ⟨4 * ((y 1 : Nat) / 2048) + 3, hlt⟩ 1 * 2048 + 2048
    rw [(index3 _).2]
    show (4 * ((y 1 : Nat) / 2048) + 3) / 4 * 2048 ≤ (y 1 : Nat) ∧ (y 1 : Nat) < (4 * ((y 1 : Nat) / 2048) + 3) / 4 * 2048 + 2048
    omega

/-- So the `mu` array ends at that function. -/
theorem final3 (c : Dev nD) : MUout m c = G3 m c :=
  (dats m 0 c).arrAt_eq_of_cover 3 (G3 m c) (flushed3 m c) (cover3 c)

/-- The partial aggregates the region leaves, as a function of the arrays it finds. -/
def G4 (c : Dev nD) : FVec Ideal S2x128x4096 .f32 := fun y =>
  ∑ k : Fin 2048, (ERarr m c (ix2 (y 1 : Fin 128) (row (y 0 : Fin 2) k)) : EReal)
    * (Marr m c (ix2 (row (y 0 : Fin 2) k) (y 2 : Fin 4096)) : EReal)

/-- The partial-aggregate block of point 4·i + j at (0, b, q) is that function at (i, b, col j q). -/
theorem ag_apply (c : Dev nD) (t : Fin cfg0.N) (i : Fin 2) (j : Fin 4) (hi : t.val / 4 = i.val) (hj : t.val % 4 = j.val)
    (b : Fin 128) (q : Fin 1024) :
    (outsAt0 m c t.val t.isLt).2.1 (ix3 (0 : Fin 1) b q) = G4 m c (ix3 i b (col j q)) := by
  rw [ag_at m c t, Body.pay4_apply]
  show _ = ∑ k : Fin 2048, (ERarr m c (ix2 b (row i k)) : EReal) * (Marr m c (ix2 (row i k) (col j q)) : EReal)
  exact Finset.sum_congr rfl fun k _ => by rw [ERblk_apply m c t i hi, Mblk_apply m c t i j hi hj]

/-- What every point writes back is its block of that function. -/
theorem flushed4 (c : Dev nD) (t : Fin cfg0.N) (hf : (cfg0.win 4).flush t = true) :
    (dats m 0 c).flushed 4 t = ((cfg0.win 4).blk t).view.read (Elt Ideal) (G4 m c) := by
  have hN : t.val < 8 := lt_of_lt_of_eq t.isLt N_0
  show (cfg0.win 4).cut (grid0.coords t) ((dats m 0 c).after 4 t) = _
  rw [after0_4]
  funext y
  obtain ⟨z, b, q, rfl⟩ : ∃ (z : Fin 1) (b : Fin 128) (q : Fin 1024), y = ix3 z b q := ⟨y 0, y 1, y 2, eq_ix3 y⟩
  obtain rfl : z = 0 := Subsingleton.elim _ _
  rw [View.read_apply]
  have he : ((cfg0.win 4).blk t).view.emb (ix3 (0 : Fin 1) b q)
      = ix3 (⟨t.val / 4, by omega⟩ : Fin 2) b (col ⟨t.val % 4, Nat.mod_lt _ (by decide)⟩ q) := by
    funext a
    apply Fin.ext
    match a with
    | ⟨0, _⟩ =>
      show win0_4.index t 0 * 1 + 1 * (0 : Fin 1).val = t.val / 4
      rw [(index4 t).1]; show t.val / 4 * 1 + 1 * 0 = t.val / 4; omega
    | ⟨1, _⟩ =>
      show win0_4.index t 1 * 128 + 1 * b.val = b.val
      rw [(index4 t).2.1]; omega
    | ⟨2, _⟩ =>
      show win0_4.index t 2 * 1024 + 1 * q.val = 1024 * (t.val % 4) + q.val
      rw [(index4 t).2.2]; omega
  show (outsAt0 m c t.val t.isLt).2.1 (ix3 (0 : Fin 1) b q) = G4 m c (((cfg0.win 4).blk t).view.emb (ix3 (0 : Fin 1) b q))
  rw [he]
  exact ag_apply m c t _ _ rfl rfl b q

/-- Every (i, b, t') lies in the block point 4·i + t' / 1024 writes back. -/
theorem cover4 (c : Dev nD) (y : ((cfg0.win 4).arr.view.loc (c.tc : Thread nD τ)).2.ty.Idx) :
    ∃ t : Fin cfg0.N, (cfg0.win 4).flush t = true ∧ y ∈ ((cfg0.win 4).blk t).view.set := by
  have h0 : (y 0 : Nat) < 2 := (y 0).isLt
  have h1 : (y 1 : Nat) < 128 := (y 1).isLt
  have h2 : (y 2 : Nat) < 4096 := (y 2).isLt
  have hlt : 4 * (y 0 : Nat) + (y 2 : Nat) / 1024 < cfg0.N := by rw [show cfg0.N = 8 from N_0]; omega
  refine ⟨⟨4 * (y 0 : Nat) + (y 2 : Nat) / 1024, hlt⟩, flush0_4 _, ?_⟩
  show y ∈ ((View.whole main_v25_1).slice (win0_4.rect ⟨4 * (y 0 : Nat) + (y 2 : Nat) / 1024, hlt⟩)).set
  rw [View.set_slice_whole, Rect.mem_set_unit]
  intro a
  match a with
  | ⟨0, _⟩ =>
    show win0_4.index ⟨4 * (y 0 : Nat) + (y 2 : Nat) / 1024, hlt⟩ 0 * 1 ≤ (y 0 : Nat)
      ∧ (y 0 : Nat) < win0_4.index ⟨4 * (y 0 : Nat) + (y 2 : Nat) / 1024, hlt⟩ 0 * 1 + 1
    rw [(index4 _).1]
    show (4 * (y 0 : Nat) + (y 2 : Nat) / 1024) / 4 * 1 ≤ (y 0 : Nat)
      ∧ (y 0 : Nat) < (4 * (y 0 : Nat) + (y 2 : Nat) / 1024) / 4 * 1 + 1
    omega
  | ⟨1, _⟩ =>
    show win0_4.index ⟨4 * (y 0 : Nat) + (y 2 : Nat) / 1024, hlt⟩ 1 * 128 ≤ (y 1 : Nat)
      ∧ (y 1 : Nat) < win0_4.index ⟨4 * (y 0 : Nat) + (y 2 : Nat) / 1024, hlt⟩ 1 * 128 + 128
    rw [(index4 _).2.1]; omega
  | ⟨2, _⟩ =>
    show win0_4.index ⟨4 * (y 0 : Nat) + (y 2 : Nat) / 1024, hlt⟩ 2 * 1024 ≤ (y 2 : Nat)
      ∧ (y 2 : Nat) < win0_4.index ⟨4 * (y 0 : Nat) + (y 2 : Nat) / 1024, hlt⟩ 2 * 1024 + 1024
    rw [(index4 _).2.2]
    show (4 * (y 0 : Nat) + (y 2 : Nat) / 1024) % 4 * 1024 ≤ (y 2 : Nat)
      ∧ (y 2 : Nat) < (4 * (y 0 : Nat) + (y 2 : Nat) / 1024) % 4 * 1024 + 1024
    omega

/-- So the partial aggregates end at that function. -/
theorem final4 (c : Dev nD) : AGout m c = G4 m c :=
  (dats m 0 c).arrAt_eq_of_cover 4 (G4 m c) (flushed4 m c) (cover4 c)

/-- The `mu` array after the region, at (b, s): zero, then the four column blocks' products added in order. -/
theorem MUout_apply (c : Dev nD) (b : Fin 128) (s : Fin 4096) :
    (MUout m c (ix2 b s) : EReal)
      = ((((0 : EReal) + ∑ k : Fin 1024, (FXarr m c (ix2 b (col 0 k)) : EReal) * (Marr m c (ix2 s (col 0 k)) : EReal))
            + ∑ k : Fin 1024, (FXarr m c (ix2 b (col 1 k)) : EReal) * (Marr m c (ix2 s (col 1 k)) : EReal))
          + ∑ k : Fin 1024, (FXarr m c (ix2 b (col 2 k)) : EReal) * (Marr m c (ix2 s (col 2 k)) : EReal))
        + ∑ k : Fin 1024, (FXarr m c (ix2 b (col 3 k)) : EReal) * (Marr m c (ix2 s (col 3 k)) : EReal) :=
  congrFun (final3 m c) (ix2 b s)

/-- The partial aggregates after the region, at (i, b, t): the product over the 2048 rows of row-block `i`. -/
theorem AGout_apply (c : Dev nD) (i : Fin 2) (b : Fin 128) (t : Fin 4096) :
    (AGout m c (ix3 i b t) : EReal)
      = ∑ k : Fin 2048, (ERarr m c (ix2 b (row i k)) : EReal) * (Marr m c (ix2 (row i k) t) : EReal) :=
  congrFun (final4 m c) (ix3 i b t)

end Cert.KernelIdeal.Accum

end
-- ==== Proof.KValue.lean ====
/-
  The kernel's program ends at `mu` and `dEdx`.

  The region leaves `mu[b, s]` as the ordered sum over the four column blocks of `∑ₖ tanh(x[b, t]) · M[s, t]`, that is
  `∑ₜ tanh(x[b, t]) · (cnt s t · w[s, t])`, and the epilogue forms
  `error[b, t] − (1 − tanh² x[b, t]) · (0 + ∑ᵢ ∑ₖ error[b, row i k] · M[row i k, t])`, that is
  `error[b, t] − (1 − tanh² x[b, t]) · ∑ₛ error[b, s] · (cnt s t · w[s, t])`. Grouping the edges by their end points
  (finite `error` and `w`; `tanh` is finite everywhere) turns both into the sums over edges that define the results.
-/
import proofs.«427457_j19834158973336_3_alg».proof.Proof.KArrays
import proofs.«427457_j19834158973336_3_alg».proof.Proof.KHost
import proofs.«427457_j19834158973336_3_alg».proof.Proof.KAccum
import proofs.«427457_j19834158973336_3_alg».proof.Proof.Result
import proofs.«427457_j19834158973336_3_alg».proof.Proof.LibEdgeSums
import Idealize.ShloMosaic.PureOps.Ideal.Laws
import Idealize.ShloMosaic.Lib.Pipeline.Value
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx Finset
open Idealize.ShloMosaic.Pipeline (Dat)

namespace Cert.KernelIdeal.KValue

open Cert.KernelIdeal Cert.KernelIdeal.Gen Cert.KernelIdeal.Arrays Cert.Result

variable (m : (ℓ : Loc nD τ sig) → Buf (Elt Ideal) ℓ) (ρ : Dev nD → PrngReg)

/-- `tanh` of an extended real is a real number: −1 and 1 at the infinities. -/
theorem tanh_real (a : EReal) : ∃ r : ℝ, Ideal.tanh a = (r : EReal) := by
  induction a using EReal.rec with
  | bot => exact ⟨-1, by simp⟩
  | coe r => exact ⟨Real.tanh r, rfl⟩
  | top => exact ⟨1, by simp⟩

/-- So is `1 − tanh²`. -/
theorem dtanh_real (a : EReal) : ∃ r : ℝ, (1 - Ideal.tanh a * Ideal.tanh a : EReal) = (r : EReal) := by
  obtain ⟨r, hr⟩ := tanh_real a
  exact ⟨1 - r * r, by rw [hr]; norm_cast⟩

/-- The second result as the epilogue leaves it. -/
abbrev DEout (c : Dev nD) : FVec Ideal S128x4096 .f32 :=
  Pipeline.afterTail₀ cfgs (dats m) 0 (V0 m) [hostOps1] c main_v28

/-- The epilogue's four operations over what the region left: `error − (1 − tanh² x) · (sum of the two partial aggregates)`. -/
theorem DEout_eq (c : Dev nD) :
    DEout m c = subf (errIn m c) (mulf (DFarr m c)
      (Host.reduceAdd (AGout m c) (constant (F := Ideal) S_ .f32 0x00000000#32) reducesTo_S2x128x4096_S128x4096_d0 h_S_)) := by
  have h1 : Pipeline.withArrays (cfgs 0).spec c (V0 m c) (fun w => (dats m 0 c).arrAt w (cfgs 0).N) (Proc.devRef .tc main_arg1)
      = errIn m c :=
    (Pipeline.withArrays_of_ne _ c (V0 m c) _ main_arg1 (by exact (by decide : ∀ w, Pipeline.arrRef spec0 w ≠ main_arg1))).trans
      (V_main_arg1 m c)
  have h2 : Pipeline.withArrays (cfgs 0).spec c (V0 m c) (fun w => (dats m 0 c).arrAt w (cfgs 0).N) (Proc.devRef .tc main_v22)
      = DFarr m c :=
    Pipeline.withArrays_of_ne _ c (V0 m c) _ main_v22 (by exact (by decide : ∀ w, Pipeline.arrRef spec0 w ≠ main_v22))
  have h4 : Pipeline.withArrays (cfgs 0).spec c (V0 m c) (fun w => (dats m 0 c).arrAt w (cfgs 0).N) (Proc.devRef .tc main_v25_1)
      = AGout m c :=
    Pipeline.withArrays_arr spec0 launch0.win.arr_inj c (V0 m c) (fun w => (dats m 0 c).arrAt w cfg0.N) 4
  unfold DEout Pipeline.afterTail₀
  show StableHlo.after hostOps1 _ (Proc.devRef .tc main_v28) = _
  after_results
  rw [h1, h2, h4]

/-- Inserting the slot coordinate `k` in front of (b, t) gives (k, b, t). -/
theorem lift_eq (h : S2x128x4096.Reduces [0] S128x4096) (b : Fin 128) (t : Fin 4096) (k : Fin 2) :
    h.lift (ix2 b t) k = ix3 k b t := by
  funext a
  apply Fin.ext
  match a with
  | ⟨0, _⟩ => rfl
  | ⟨1, _⟩ => rfl
  | ⟨2, _⟩ => rfl

/-- The epilogue at (b, t). -/
theorem DEout_apply (c : Dev nD) (b : Fin 128) (t : Fin 4096) :
    (DEout m c (ix2 b t) : EReal)
      = (errIn m c (ix2 b t) : EReal)
        - (DFarr m c (ix2 b t) : EReal) * ((0 : EReal) + ∑ i : Fin 2, (AGout m c (ix3 i b t) : EReal)) := by
  have hR : S2x128x4096.Reduces [0] S128x4096 := by decide
  rw [DEout_eq]
  simp only [subf, mulf, Host.reduceAdd, constant, Ideal.subf_def, Ideal.mulf_def, Ideal.hostReduceAdd_def, Ideal.ofBits_def,
    Ideal.hostReduceAdd_single reducesTo_S2x128x4096_S128x4096_d0 hR, Ideal.ofBits_zero_f32]
  exact congrArg (fun z : EReal => (errIn m c (ix2 b t) : EReal) - (DFarr m c (ix2 b t) : EReal) * ((0 : EReal) + z))
    (Finset.sum_congr rfl fun k _ => congrArg (AGout m c) (lift_eq hR b t k))

/-- THE FIRST RESULT: the `mu` array the region leaves is `mu`, for finite `w` and ids in range. -/
theorem mu_eq (c : Dev nD) (hw : ∀ i, ∃ r : ℝ, (wIn m c i : EReal) = (r : EReal)) (hr : ∀ i, (eiIn m c i).toNat < 4096)
    (b : Fin 128) (s : Fin 4096) :
    (MUout m c (ix2 b s) : EReal) = mu (xIn m c) (wIn m c) (eiIn m c) b s := by
  refine (Accum.MUout_apply m c b s).trans ?_
  refine (Cert.EdgeSums.sum_blocks4
    (fun t : Fin 4096 => (FXarr m c (ix2 b t) : EReal) * (Marr m c (ix2 s t) : EReal)) col col_bijective).trans ?_
  simp only [HostIn.FXarr_apply, HostIn.Marr_apply m c hr]
  exact Cert.EdgeSums.sum_out_edges (srcV (eiIn m c)) (tgtV (eiIn m c)) s
    (th := fun t => Ideal.tanh (xIn m c (ix2 b t))) (w := fun a a' => (wIn m c (ix2 a a') : EReal))
    (fun v => tanh_real _) (fun a a' => hw _)

/-- THE SECOND RESULT: what the epilogue leaves is `dEdx`, for finite `error` and `w` and ids in range. -/
theorem de_eq (c : Dev nD) (he : ∀ i, ∃ r : ℝ, (errIn m c i : EReal) = (r : EReal))
    (hw : ∀ i, ∃ r : ℝ, (wIn m c i : EReal) = (r : EReal)) (hr : ∀ i, (eiIn m c i).toNat < 4096)
    (b : Fin 128) (t : Fin 4096) :
    (DEout m c (ix2 b t) : EReal) = dEdx (xIn m c) (errIn m c) (wIn m c) (eiIn m c) b t := by
  rw [DEout_apply]
  simp only [Accum.AGout_apply, zero_add]
  rw [Cert.EdgeSums.sum_blocks2
    (fun s : Fin 4096 => (ERarr m c (ix2 b s) : EReal) * (Marr m c (ix2 s t) : EReal)) row row_bijective]
  simp only [HostIn.Marr_apply m c hr]
  rw [HostIn.DFarr_apply m c b t,
    Finset.sum_congr rfl (fun s _ => congrArg (· * (Cert.EdgeSums.cnt (srcV (eiIn m c)) (tgtV (eiIn m c)) s t * (wIn m c (ix2 s t) : EReal)))
      (HostIn.ERarr_apply m c b s))]
  unfold dEdx
  refine congrArg (fun z : EReal => (errIn m c (ix2 b t) : EReal) - z) ?_
  exact Cert.EdgeSums.sum_in_edges (srcV (eiIn m c)) (tgtV (eiIn m c)) t
    (d := fun v => 1 - Ideal.tanh (xIn m c (ix2 b v)) * Ideal.tanh (xIn m c (ix2 b v)))
    (er := fun v => (errIn m c (ix2 b v) : EReal)) (w := fun a a' => (wIn m c (ix2 a a') : EReal))
    (fun v => dtanh_real _) (fun v => he _) (fun a a' => hw _)

/-- THE RUN, READ: from any memory with finite `error` and `w` and ids in range, every weakly fair execution of the kernel's
    program terminates with its two results at `mu` and `dEdx` of the launch contents and the arguments unchanged. -/
theorem run (he : ∀ (c : Dev nD) i, ∃ r : ℝ, (errIn m c i : EReal) = (r : EReal))
    (hw : ∀ (c : Dev nD) i, ∃ r : ℝ, (wIn m c i : EReal) = (r : EReal))
    (hr : ∀ (c : Dev nD) i, (eiIn m c i).toNat < 4096) :
    θ_run defs (onTc (τ := τ) (main (F := Ideal))) ⟨m, fun _ => 0, ρ⟩ fun r => ∀ c : Dev nD,
      r.2.mem ((c.tc : Thread nD τ).loc main_v25_0) = muArr (xIn m c) (wIn m c) (eiIn m c)
      ∧ r.2.mem ((c.tc : Thread nD τ).loc main_v28) = dEdxArr (xIn m c) (errIn m c) (wIn m c) (eiIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨?_, ?_, ?_, ?_, ?_, ?_⟩) (run_main m ρ)
  · refine ((h c).1 3).trans ?_
    funext i
    obtain ⟨p, q, rfl⟩ : ∃ (p : Fin 128) (q : Fin 4096), i = ix2 p q := ⟨i 0, i 1, eq_ix2 i⟩
    exact mu_eq m c (hw c) (hr c) p q
  · refine ((h c).2 main_v28 (Pipeline.mem_restRefs_of main_v28 (by decide) (by decide))).trans ?_
    funext i
    obtain ⟨p, q, rfl⟩ : ∃ (p : Fin 128) (q : Fin 4096), i = ix2 p q := ⟨i 0, i 1, eq_ix2 i⟩
    exact de_eq m c (he c) (hw c) (hr c) p q
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.KValue

end
-- ==== Proof.RefValue.lean ====
/-
  The reference's two results are `mu` and `dEdx`.

  The reference normalises each vertex id the way array indexing does (an id below zero has the extent added), which
  for ids in [0, 4096) changes nothing; gathers `w` at the (source, target) pair of every edge and the columns of
  `x` at the targets and of `error` at the sources; forms the per-edge messages; and scatter-adds them, column by
  column, into zeros at the sources (first result) and at the targets (second result, subtracted from `error`).
  With every id in range each gather is plain indexing and each accumulating scatter is, at the ideal instance, zero
  plus the sum of the messages of the edges whose id is the cell's column: the sums that define `mu` and `dEdx`.
-/
import proofs.«427457_j19834158973336_3_alg».proof.Proof.Gen.ReferenceIdeal.Read
import proofs.«427457_j19834158973336_3_alg».proof.Proof.Result
import proofs.«427457_j19834158973336_3_alg».proof.Proof.EdgeIndex
import Idealize.ShloMosaic.PureOps.Ideal.Laws
import Idealize.ShloMosaic.Lib.Pipeline.Value
import Idealize.ShloMosaic.Lib.ValueIdx
import Idealize.ShloMosaic.Lib.StableHlo.Predicate

noncomputable section

open scoped BigOperators
open Idealize.ShloMosaic Idealize.ShloMosaic.TcCoe Idealize.SL.Sem Idealize.ShloMosaic.ValueIdx Finset

namespace Cert.ReferenceIdeal.RefValue

open Cert.ReferenceIdeal Cert.ReferenceIdeal.Gen Cert.Result Cert.ReferenceIdeal.Read
open Idealize.ShloMosaic.StableHlo.Predicate

/-! ## The ids: each normalised copy of a row of `edge_index` is the row -/

/-- Array indexing's normalisation of an id (an id below zero has the extent added) leaves an id in range alone: read
    signed, a word below 4096 is not below zero. -/
theorem norm_word (w : BitVec 32) (h : w.toNat < 4096) :
    Scalar.select (IntOp.cmpi .slt w 0#32) (IntOp.addi w 4096#32) w = w := by
  have hc : IntOp.cmpi .slt w 0#32 = 0#1 := by
    refine eq_zero_of_ne_one (fun hc => ?_)
    have := (slt_iff_toNat (a := w) (b := 0#32) (by omega) (by decide)).mp hc
    simp at this
  rw [hc, select_zero]

/-- Row 0 of `edge_index`, flattened, at edge `e`. -/
theorem v1_at (x3 : IVec S2x262144 32) (e : Fin 262144) :
    val_main_v1 (F := Ideal) x3 (ix1 e) = x3 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- Row 1 of `edge_index`, flattened, at edge `e`. -/
theorem v3_at (x3 : IVec S2x262144 32) (e : Fin 262144) :
    val_main_v3 (F := Ideal) x3 (ix1 e) = x3 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- The normalised sources the pair table is built from. -/
theorem v8_at (x3 : IVec S2x262144 32) (hr : ∀ i, (x3 i).toNat < 4096) (e : Fin 262144) :
    val_main_v8 (F := Ideal) x3 (ix1 e) = x3 (ix2 (0 : Fin 2) e) := by
  rw [val_main_v8_apply, val_main_v5_apply, val_main_v7_apply, val_main_v4_apply, val_main_c_apply,
    val_main_v6_apply, val_main_c_0_apply, v1_at]
  exact norm_word _ (hr _)

/-- The normalised targets the pair table is built from. -/
theorem v13_at (x3 : IVec S2x262144 32) (hr : ∀ i, (x3 i).toNat < 4096) (e : Fin 262144) :
    val_main_v13 (F := Ideal) x3 (ix1 e) = x3 (ix2 (1 : Fin 2) e) := by
  rw [val_main_v13_apply, val_main_v10_apply, val_main_v12_apply, val_main_v9_apply, val_main_c_1_apply,
    val_main_v11_apply, val_main_c_2_apply, v3_at]
  exact norm_word _ (hr _)

/-- The normalised targets `x`'s columns are gathered at. -/
theorem v22_at (x3 : IVec S2x262144 32) (hr : ∀ i, (x3 i).toNat < 4096) (e : Fin 262144) :
    val_main_v22 (F := Ideal) x3 (ix1 e) = x3 (ix2 (1 : Fin 2) e) := by
  rw [val_main_v22_apply, val_main_v19_apply, val_main_v21_apply, val_main_v18_apply, val_main_c_3_apply,
    val_main_v20_apply, val_main_c_4_apply, v3_at]
  exact norm_word _ (hr _)

/-- The normalised sources the first scatter adds at. -/
theorem v34_at (x3 : IVec S2x262144 32) (hr : ∀ i, (x3 i).toNat < 4096) (e : Fin 262144) :
    val_main_v34 (F := Ideal) x3 (ix1 e) = x3 (ix2 (0 : Fin 2) e) := by
  rw [val_main_v34_apply, val_main_v31_apply, val_main_v33_apply, val_main_v30_apply, val_main_c_5_apply,
    val_main_v32_apply, val_main_c_6_apply, v1_at]
  exact norm_word _ (hr _)

/-- The normalised sources `error`'s columns are gathered at. -/
theorem v45_at (x3 : IVec S2x262144 32) (hr : ∀ i, (x3 i).toNat < 4096) (e : Fin 262144) :
    val_main_v45 (F := Ideal) x3 (ix1 e) = x3 (ix2 (0 : Fin 2) e) := by
  rw [val_main_v45_apply, val_main_v42_apply, val_main_v44_apply, val_main_v41_apply, val_main_c_9_apply,
    val_main_v43_apply, val_main_c_10_apply, v1_at]
  exact norm_word _ (hr _)

/-- The normalised targets the second scatter adds at. -/
theorem v56_at (x3 : IVec S2x262144 32) (hr : ∀ i, (x3 i).toNat < 4096) (e : Fin 262144) :
    val_main_v56 (F := Ideal) x3 (ix1 e) = x3 (ix2 (1 : Fin 2) e) := by
  rw [val_main_v56_apply, val_main_v53_apply, val_main_v55_apply, val_main_v52_apply, val_main_c_11_apply,
    val_main_v54_apply, val_main_c_12_apply, v3_at]
  exact norm_word _ (hr _)

/-- The sources as a column. -/
theorem v14_at (x3 : IVec S2x262144 32) (hr : ∀ i, (x3 i).toNat < 4096) (e : Fin 262144) :
    val_main_v14 (F := Ideal) x3 (ix2 e (0 : Fin 1)) = x3 (ix2 (0 : Fin 2) e) := by
  rw [val_main_v14_apply, show idx_main_v14 (ix2 e (0 : Fin 1)) = ix1 e from
    funext fun a => match a with | ⟨0, _⟩ => rfl]
  exact v8_at x3 hr e

/-- The targets as a column. -/
theorem v15_at (x3 : IVec S2x262144 32) (hr : ∀ i, (x3 i).toNat < 4096) (e : Fin 262144) :
    val_main_v15 (F := Ideal) x3 (ix2 e (0 : Fin 1)) = x3 (ix2 (1 : Fin 2) e) := by
  rw [val_main_v15_apply, show idx_main_v15 (ix2 e (0 : Fin 1)) = ix1 e from
    funext fun a => match a with | ⟨0, _⟩ => rfl]
  exact v13_at x3 hr e

/-- The gather's targets as a column. -/
theorem v23_at (x3 : IVec S2x262144 32) (hr : ∀ i, (x3 i).toNat < 4096) (e : Fin 262144) :
    val_main_v23 (F := Ideal) x3 (ix2 e (0 : Fin 1)) = x3 (ix2 (1 : Fin 2) e) := by
  rw [val_main_v23_apply, show idx_main_v23 (ix2 e (0 : Fin 1)) = ix1 e from
    funext fun a => match a with | ⟨0, _⟩ => rfl]
  exact v22_at x3 hr e

/-- The first scatter's sources as a column. -/
theorem v35_at (x3 : IVec S2x262144 32) (hr : ∀ i, (x3 i).toNat < 4096) (e : Fin 262144) :
    val_main_v35 (F := Ideal) x3 (ix2 e (0 : Fin 1)) = x3 (ix2 (0 : Fin 2) e) := by
  rw [val_main_v35_apply, show idx_main_v35 (ix2 e (0 : Fin 1)) = ix1 e from
    funext fun a => match a with | ⟨0, _⟩ => rfl]
  exact v34_at x3 hr e

/-- The gather's sources as a column. -/
theorem v46_at (x3 : IVec S2x262144 32) (hr : ∀ i, (x3 i).toNat < 4096) (e : Fin 262144) :
    val_main_v46 (F := Ideal) x3 (ix2 e (0 : Fin 1)) = x3 (ix2 (0 : Fin 2) e) := by
  rw [val_main_v46_apply, show idx_main_v46 (ix2 e (0 : Fin 1)) = ix1 e from
    funext fun a => match a with | ⟨0, _⟩ => rfl]
  exact v45_at x3 hr e

/-- The second scatter's targets as a column. -/
theorem v57_at (x3 : IVec S2x262144 32) (hr : ∀ i, (x3 i).toNat < 4096) (e : Fin 262144) :
    val_main_v57 (F := Ideal) x3 (ix2 e (0 : Fin 1)) = x3 (ix2 (1 : Fin 2) e) := by
  rw [val_main_v57_apply, show idx_main_v57 (ix2 e (0 : Fin 1)) = ix1 e from
    funext fun a => match a with | ⟨0, _⟩ => rfl]
  exact v56_at x3 hr e

/-- The pair table's first column is the sources. -/
theorem v16_at0 (x3 : IVec S2x262144 32) (hr : ∀ i, (x3 i).toNat < 4096) (e : Fin 262144) :
    val_main_v16 (F := Ideal) x3 (ix2 e (0 : Fin 2)) = x3 (ix2 (0 : Fin 2) e) := by
  unfold val_main_v16
  rw [concatenate_pair_apply_left (t := S262144x2) (s₁ := S262144x1) (s₂ := S262144x1) (1 : Fin 2) _ _ _ (ix2 e (0 : Fin 2)) rfl
    (ix2 e (0 : Fin 1)) (fun b => match b with | ⟨0, _⟩ => rfl | ⟨1, _⟩ => rfl)]
  exact v14_at x3 hr e

/-- The pair table's second column is the targets. -/
theorem v16_at1 (x3 : IVec S2x262144 32) (hr : ∀ i, (x3 i).toNat < 4096) (e : Fin 262144) :
    val_main_v16 (F := Ideal) x3 (ix2 e (1 : Fin 2)) = x3 (ix2 (1 : Fin 2) e) := by
  unfold val_main_v16
  rw [concatenate_pair_apply_right (t := S262144x2) (s₁ := S262144x1) (s₂ := S262144x1) (1 : Fin 2) _ _ _ (ix2 e (1 : Fin 2)) rfl rfl
    (ix2 e (0 : Fin 1)) (fun b => match b with | ⟨0, _⟩ => fun _ => rfl | ⟨1, _⟩ => fun h => absurd rfl h) rfl]
  exact v15_at x3 hr e

/-! ## The gathers: with the ids in range each is plain indexing -/

/-- `w` gathered at the pair table: edge `e`'s weight. -/
theorem v17_at (x2 : FVec Ideal S4096x4096 .f32) (x3 : IVec S2x262144 32) (hr : ∀ i, (x3 i).toNat < 4096) (e : Fin 262144) :
    val_main_v17 (F := Ideal) x2 x3 (ix1 e) = x2 (ix2 (srcV x3 e) (tgtV x3 e)) := by
  unfold val_main_v17
  rw [Cert.EdgeIndex.gather_pair_apply x2 (val_main_v16 (F := Ideal) x3) e
    (by rw [v16_at0 x3 hr e]; exact hr _) (by rw [v16_at1 x3 hr e]; exact hr _), v16_at0 x3 hr e, v16_at1 x3 hr e]
  rfl

/-- `x`'s columns gathered at the targets. -/
theorem v24_at (x0 : FVec Ideal S128x4096 .f32) (x3 : IVec S2x262144 32) (hr : ∀ i, (x3 i).toNat < 4096) (b : Fin 128) (e : Fin 262144) :
    val_main_v24 (F := Ideal) x0 x3 (ix2 b e) = x0 (ix2 b (tgtV x3 e)) := by
  unfold val_main_v24
  rw [Cert.EdgeIndex.gather_col_apply x0 (val_main_v23 (F := Ideal) x3) b e (by rw [v23_at x3 hr e]; exact hr _),
    v23_at x3 hr e]
  rfl

/-- `error`'s columns gathered at the sources. -/
theorem v47_at (x1 : FVec Ideal S128x4096 .f32) (x3 : IVec S2x262144 32) (hr : ∀ i, (x3 i).toNat < 4096) (b : Fin 128) (e : Fin 262144) :
    val_main_v47 (F := Ideal) x1 x3 (ix2 b e) = x1 (ix2 b (srcV x3 e)) := by
  unfold val_main_v47
  rw [Cert.EdgeIndex.gather_col_apply x1 (val_main_v46 (F := Ideal) x3) b e (by rw [v46_at x3 hr e]; exact hr _),
    v46_at x3 hr e]
  rfl

/-- The weights as a row, repeated down the 128 rows (first use). -/
theorem v28_at (x2 : FVec Ideal S4096x4096 .f32) (x3 : IVec S2x262144 32) (hr : ∀ i, (x3 i).toNat < 4096) (b : Fin 128) (e : Fin 262144) :
    val_main_v28 (F := Ideal) x2 x3 (ix2 b e) = x2 (ix2 (srcV x3 e) (tgtV x3 e)) := by
  rw [val_main_v28_apply, val_main_v27_apply,
    show idx_main_v27 (idx_main_v28 (ix2 b e)) = ix1 e from funext fun a => match a with | ⟨0, _⟩ => rfl]
  exact v17_at x2 x3 hr e

/-- The weights as a row, repeated down the 128 rows (second use). -/
theorem v50_at (x2 : FVec Ideal S4096x4096 .f32) (x3 : IVec S2x262144 32) (hr : ∀ i, (x3 i).toNat < 4096) (b : Fin 128) (e : Fin 262144) :
    val_main_v50 (F := Ideal) x2 x3 (ix2 b e) = x2 (ix2 (srcV x3 e) (tgtV x3 e)) := by
  rw [val_main_v50_apply, val_main_v49_apply,
    show idx_main_v49 (idx_main_v50 (ix2 b e)) = ix1 e from funext fun a => match a with | ⟨0, _⟩ => rfl]
  exact v17_at x2 x3 hr e

/-! ## The messages -/

/-- The f32 pattern of 1.0 is the extended real `1`. -/
theorem ofBits_one_f32 : Ideal.ofBits .f32 0x3F800000#32 = 1 := by
  simp [Ideal.ofBits, Ideal.ieee, -EReal.coe_mul]; norm_num

/-- `tanh` of the gathered `x`. -/
theorem v25_at (x0 : FVec Ideal S128x4096 .f32) (x3 : IVec S2x262144 32) (hr : ∀ i, (x3 i).toNat < 4096) (b : Fin 128) (e : Fin 262144) :
    val_main_v25 (F := Ideal) x0 x3 (ix2 b e) = Ideal.tanh (x0 (ix2 b (tgtV x3 e))) := by
  rw [val_main_v25_apply, v24_at x0 x3 hr b e]
  rfl

/-- The first result's message of edge `e` in row `b`. -/
theorem v29_at (x0 : FVec Ideal S128x4096 .f32) (x2 : FVec Ideal S4096x4096 .f32) (x3 : IVec S2x262144 32) (hr : ∀ i, (x3 i).toNat < 4096) (b : Fin 128) (e : Fin 262144) :
    val_main_v29 (F := Ideal) x0 x2 x3 (ix2 b e)
      = Ideal.tanh (x0 (ix2 b (tgtV x3 e))) * x2 (ix2 (srcV x3 e) (tgtV x3 e)) := by
  rw [val_main_v29_apply, v25_at x0 x3 hr b e, v28_at x2 x3 hr b e]
  rfl

/-- `1 − tanh²` of the gathered `x`. -/
theorem v39_at (x0 : FVec Ideal S128x4096 .f32) (x3 : IVec S2x262144 32) (hr : ∀ i, (x3 i).toNat < 4096) (b : Fin 128) (e : Fin 262144) :
    val_main_v39 (F := Ideal) x0 x3 (ix2 b e)
      = 1 - Ideal.tanh (x0 (ix2 b (tgtV x3 e))) * Ideal.tanh (x0 (ix2 b (tgtV x3 e))) := by
  rw [val_main_v39_apply, val_main_v38_apply, val_main_cst_7_apply, val_main_v37_apply, v25_at x0 x3 hr b e]
  show Ideal.ofBits .f32 0x3F800000#32 - _ = _
  rw [ofBits_one_f32]
  rfl

/-- The second result's message of edge `e` in row `b`. -/
theorem v51_at (x0 x1 : FVec Ideal S128x4096 .f32) (x2 : FVec Ideal S4096x4096 .f32) (x3 : IVec S2x262144 32) (hr : ∀ i, (x3 i).toNat < 4096) (b : Fin 128) (e : Fin 262144) :
    val_main_v51 (F := Ideal) x0 x1 x2 x3 (ix2 b e)
      = ((1 - Ideal.tanh (x0 (ix2 b (tgtV x3 e))) * Ideal.tanh (x0 (ix2 b (tgtV x3 e)))) * x1 (ix2 b (srcV x3 e)))
          * x2 (ix2 (srcV x3 e) (tgtV x3 e)) := by
  rw [val_main_v51_apply, val_main_v48_apply, v39_at x0 x3 hr b e, v47_at x1 x3 hr b e, v50_at x2 x3 hr b e]
  rfl

/-! ## The scatters: zero plus the sum of the messages of the edges whose id is the cell's column -/

/-- The first scatter at a cell. -/
theorem v36_at (x0 : FVec Ideal S128x4096 .f32) (x2 : FVec Ideal S4096x4096 .f32) (x3 : IVec S2x262144 32) (hr : ∀ i, (x3 i).toNat < 4096) (b : Fin 128) (s : Fin 4096) :
    val_main_v36 (F := Ideal) x0 x2 x3 (ix2 b s) = mu x0 x2 x3 b s := by
  unfold val_main_v36 Host.scatterAdd
  rw [Ideal.hostScatterAdd_def, Cert.EdgeIndex.scatter_col_apply _ _ _ (fun e => by rw [v35_at x3 hr e]; exact hr _) b s,
    val_main_v26_apply, val_main_cst_apply]
  show Ideal.ofBits .f32 0x00000000#32 + _ = _
  rw [Ideal.ofBits_zero_f32, zero_add]
  unfold mu
  refine Finset.sum_congr (Finset.filter_congr (fun e _ => ?_)) (fun e _ => v29_at x0 x2 x3 hr b e)
  rw [v35_at x3 hr e]
  rfl

/-- The second scatter at a cell. -/
theorem v58_at (x0 x1 : FVec Ideal S128x4096 .f32) (x2 : FVec Ideal S4096x4096 .f32) (x3 : IVec S2x262144 32) (hr : ∀ i, (x3 i).toNat < 4096) (b : Fin 128) (t : Fin 4096) :
    val_main_v58 (F := Ideal) x0 x1 x2 x3 (ix2 b t)
      = ∑ e ∈ univ.filter (fun e : Fin 262144 => tgtV x3 e = t),
          ((1 - Ideal.tanh (x0 (ix2 b (tgtV x3 e))) * Ideal.tanh (x0 (ix2 b (tgtV x3 e)))) * x1 (ix2 b (srcV x3 e)))
            * x2 (ix2 (srcV x3 e) (tgtV x3 e)) := by
  unfold val_main_v58 Host.scatterAdd
  rw [Ideal.hostScatterAdd_def, Cert.EdgeIndex.scatter_col_apply _ _ _ (fun e => by rw [v57_at x3 hr e]; exact hr _) b t,
    val_main_v40_apply, val_main_cst_8_apply]
  show Ideal.ofBits .f32 0x00000000#32 + _ = _
  rw [Ideal.ofBits_zero_f32, zero_add]
  refine Finset.sum_congr (Finset.filter_congr (fun e _ => ?_)) (fun e _ => v51_at x0 x1 x2 x3 hr b e)
  rw [v57_at x3 hr e]
  rfl

/-- The first result's term is `mu`, for ids in range. -/
theorem v36_eq (x0 : FVec Ideal S128x4096 .f32) (x2 : FVec Ideal S4096x4096 .f32) (x3 : IVec S2x262144 32)
    (hr : ∀ i, (x3 i).toNat < 4096) :
    Cert.ReferenceIdeal.Read.val_main_v36 (F := Ideal) x0 x2 x3 = muArr x0 x2 x3 := by
  funext i
  obtain ⟨b, s, rfl⟩ : ∃ (b : Fin 128) (s : Fin 4096), i = ix2 b s := ⟨i 0, i 1, eq_ix2 i⟩
  exact v36_at x0 x2 x3 hr b s

/-- The second result's term is `dEdx`, for ids in range. -/
theorem v59_eq (x0 x1 : FVec Ideal S128x4096 .f32) (x2 : FVec Ideal S4096x4096 .f32) (x3 : IVec S2x262144 32)
    (hr : ∀ i, (x3 i).toNat < 4096) :
    Cert.ReferenceIdeal.Read.val_main_v59 (F := Ideal) x0 x1 x2 x3 = dEdxArr x0 x1 x2 x3 := by
  funext i
  obtain ⟨b, t, rfl⟩ : ∃ (b : Fin 128) (t : Fin 4096), i = ix2 b t := ⟨i 0, i 1, eq_ix2 i⟩
  rw [val_main_v59_apply, v58_at x0 x1 x2 x3 hr b t]
  rfl

/-- The reference's run, read: from any memory whose `edge_index` holds ids in range, every weakly fair execution
    terminates with the two results at `mu` and `dEdx` of the launch contents and the arguments unchanged. -/
theorem run (m : (ℓ : Loc nD τ sig) → Buf (Elt Ideal) ℓ) (ρ : Dev nD → PrngReg)
    (hr : ∀ (c : Dev nD) i, (m ((c.tc : Thread nD τ).loc main_arg3) i).toNat < 4096) :
    θ_run defs (onTc (τ := τ) (main (F := Ideal))) ⟨m, fun _ => 0, ρ⟩ fun r => ∀ c : Dev nD,
      r.2.mem ((c.tc : Thread nD τ).loc main_v36)
          = muArr (m ((c.tc : Thread nD τ).loc main_arg0)) (m ((c.tc : Thread nD τ).loc main_arg2)) (m ((c.tc : Thread nD τ).loc main_arg3))
      ∧ r.2.mem ((c.tc : Thread nD τ).loc main_v59)
          = dEdxArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((val_main_v36_eq (F := Ideal) (m ((c.tc : Thread nD τ).loc main_arg0)) (m ((c.tc : Thread nD τ).loc main_arg2))
        (m ((c.tc : Thread nD τ).loc main_arg3))).trans (v36_eq _ _ _ (hr c))),
      (h c).2.1.trans ((val_main_v59_eq (F := Ideal) m c).trans (v59_eq _ _ _ _ (hr c))),
      (h c).2.2⟩)
    (Cert.ReferenceIdeal.Value.run (F := Ideal) m ρ)

end Cert.ReferenceIdeal.RefValue

end
-- ==== Proof.lean ====
/-
  The kernel builds, from the edge list, the dense matrix M[s, t] = (number of edges s → t) · w[s, t] and computes
  mu = tanh(x) · Mᵀ and dEdx = error − (1 − tanh² x) · (error · M) with two blocked matrix products; the reference sums the
  per-edge messages tanh(x[b, tgt e]) · w[src e, tgt e] over the edges leaving each vertex, and
  ((1 − tanh² x[b, tgt e]) · error[b, src e]) · w[src e, tgt e] over the edges entering each vertex. For vertex ids in
  [0, 4096) — outside that range the reference's own indexing leaves its arrays, and the two programs place an edge
  differently — and finite `error` and `w`, grouping the edges by their end points shows the two equal over the extended
  reals: both programs end at `Cert.Result.muArr` and `Cert.Result.dEdxArr` of the inputs.

  The three frames are the generated frame runs (the reference's is its generated run with the results dropped); the ideal
  pass rewrote nothing, so the idealization claim is `True`; the equivalence pairs the kernel-side run (`KValue.run`) with
  the reference's (`RefValue.run`), the precondition read by `PreRead.decode`.
-/
import proofs.«427457_j19834158973336_3_alg».proof.Defs
import proofs.«427457_j19834158973336_3_alg».proof.Proof.Gen.Kernel
import proofs.«427457_j19834158973336_3_alg».proof.Proof.Gen.Kernel.Skeleton
import proofs.«427457_j19834158973336_3_alg».proof.Proof.Gen.Kernel.Launch
import proofs.«427457_j19834158973336_3_alg».proof.Proof.Gen.Kernel.Points
import proofs.«427457_j19834158973336_3_alg».proof.Proof.Gen.Kernel.Frame
import proofs.«427457_j19834158973336_3_alg».proof.Proof.Gen.KernelIdeal
import proofs.«427457_j19834158973336_3_alg».proof.Proof.Gen.KernelIdeal.Skeleton
import proofs.«427457_j19834158973336_3_alg».proof.Proof.Gen.KernelIdeal.Launch
import proofs.«427457_j19834158973336_3_alg».proof.Proof.Gen.KernelIdeal.Points
import proofs.«427457_j19834158973336_3_alg».proof.Proof.Gen.KernelIdeal.Frame
import proofs.«427457_j19834158973336_3_alg».proof.Proof.Gen.ReferenceIdeal
import proofs.«427457_j19834158973336_3_alg».proof.Proof.Gen.Pre_finite_inputs
import proofs.«427457_j19834158973336_3_alg».proof.Proof.Gen.ReferenceIdeal.Run
import proofs.«427457_j19834158973336_3_alg».proof.Proof.Gen.ReferenceIdeal.Read
import proofs.«427457_j19834158973336_3_alg».proof.Proof.PreRead
import proofs.«427457_j19834158973336_3_alg».proof.Proof.KValue
import proofs.«427457_j19834158973336_3_alg».proof.Proof.RefValue
import Idealize.ShloMosaic.Adequacy
import Idealize.ShloMosaic.Init

noncomputable section

namespace Cert.Proof

open Idealize.ShloMosaic Idealize.ShloMosaic.TcCoe Idealize.SL.Sem Cert.Result

/-- The word-level kernel runs and keeps its arguments: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four inputs, under the precondition, both programs end at `mu` and `dEdx` of the
    kernel's inputs. -/
theorem algebraic : Cert.algebraic_KernelIdeal_ReferenceIdeal := by
  intro m ρ m' ρ' hpre hagree
  have hd := fun c => Cert.PreRead.decode _ _ _ _ (hpre c)
  refine ⟨fun c => muArr (m ((c.tc : Thread _ Cert.KernelIdeal.τ).loc Cert.KernelIdeal.main_arg0))
      (m ((c.tc : Thread _ Cert.KernelIdeal.τ).loc Cert.KernelIdeal.main_arg2)) (m ((c.tc : Thread _ Cert.KernelIdeal.τ).loc Cert.KernelIdeal.main_arg3)),
    fun c => dEdxArr (m ((c.tc : Thread _ Cert.KernelIdeal.τ).loc Cert.KernelIdeal.main_arg0))
      (m ((c.tc : Thread _ Cert.KernelIdeal.τ).loc Cert.KernelIdeal.main_arg1)) (m ((c.tc : Thread _ Cert.KernelIdeal.τ).loc Cert.KernelIdeal.main_arg2))
      (m ((c.tc : Thread _ Cert.KernelIdeal.τ).loc Cert.KernelIdeal.main_arg3)), ?_, ?_⟩
  · exact Cert.KernelIdeal.KValue.run m ρ (fun c => (hd c).2.1) (fun c => (hd c).2.2.1) (fun c => (hd c).2.2.2)
  · refine (θ_run Cert.ReferenceIdeal.defs _ _).mono (fun _ h c => ?_)
      (Cert.ReferenceIdeal.RefValue.run m' ρ' (fun c i => by rw [(hagree c).2.2.2]; exact (hd c).2.2.2 i))
    obtain ⟨h1, h2, h3⟩ := h c
    rw [(hagree c).1, (hagree c).2.2.1, (hagree c).2.2.2] at h1
    rw [(hagree c).1, (hagree c).2.1, (hagree c).2.2.1, (hagree c).2.2.2] at h2
    exact ⟨h1, h2, h3⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
